-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000x1 : Shape := ⟨2, ![640000, 1]⟩
abbrev S256x128 : Shape := ⟨2, ![256, 128]⟩
abbrev S128 : Shape := ⟨1, ![128]⟩
abbrev S640000 : Shape := ⟨1, ![640000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x1 : S_.BroadcastsInDim S640000x1 (![] : Fin 0 → Fin S640000x1.rank)
  reducesTo_S640000x1_S_d0_1 : S640000x1.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S640000 : S_.BroadcastsInDim S640000 (![] : Fin 0 → Fin S640000.rank)
  reducesTo_S640000_S_d0 : S640000.ReducesTo [0] S_

variable [Facts]

def fn_part1 {F : FTy → Type} [FloatOps F] (main_arg4 : IVec S640000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S640000 32 := broadcastInDim S640000 ![] bcast_S_S640000 main_c_6
  let main_v20 : IVec S640000 1 := cmpi .sge main_arg4 main_v19
  let main_c_7 : IVec S_ 1 := constantI S_ 1 1#1
  let main_v21 : IVec S_ 1 := (fun x v => Host.reduce IntOp.andi x v reducesTo_S640000_S_d0 h_S_) main_v20 main_c_7
  let main_v22 : IVec S_ 1 := andi main_v18 main_v21
  let main_c_8 : IVec S_ 32 := constantI S_ 32 10000#32
  let main_v23 : IVec S640000 32 := broadcastInDim S640000 ![] bcast_S_S640000 main_c_8
  let main_v24 : IVec S640000 1 := cmpi .slt main_arg4 main_v23
  let main_c_9 : IVec S_ 1 := constantI S_ 1 1#1
  let main_v25 : IVec S_ 1 := (fun x v => Host.reduce IntOp.andi x v reducesTo_S640000_S_d0 h_S_) main_v24 main_c_9
  let main_v26 : IVec S_ 1 := andi main_v22 main_v25
  main_v26

def fn {F : FTy → Type} [FloatOps F] (main_arg0 : FVec F S10000x128 .f32) (main_arg1 : FVec F S640000x1 .f32) (main_arg2 : FVec F S256x128 .f32) (main_arg3 : FVec F S128 .f32) (main_arg4 : IVec S640000 32) (main_arg5 : IVec S640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x1 .f32 := Host.absf main_arg1
  let main_cst_0 : FVec F S_ .f32 := constant S_ .f32 0x7F800000#32
  let main_v5 : FVec F S640000x1 .f32 := broadcastInDim S640000x1 ![] bcast_S_S640000x1 main_cst_0
  let main_v6 : IVec S640000x1 1 := cmpf .olt main_v4 main_v5
  let main_c_1 : IVec S_ 1 := constantI S_ 1 1#1
  let main_v7 : IVec S_ 1 := (fun x v => Host.reduce IntOp.andi x v reducesTo_S640000x1_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S10000x128 : Shape := ⟨2, ![10000, 128]⟩
abbrev S640000x1 : Shape := ⟨2, ![640000, 1]⟩
abbrev S256x128 : Shape := ⟨2, ![256, 128]⟩
abbrev S128 : Shape := ⟨1, ![128]⟩
abbrev S640000 : Shape := ⟨1, ![640000]⟩
abbrev S2x320000x1 : Shape := ⟨3, ![2, 320000, 1]⟩
abbrev S2x10000x128 : Shape := ⟨3, ![2, 10000, 128]⟩
abbrev S2x1x10000 : Shape := ⟨3, ![2, 1, 10000]⟩
abbrev S1x2560x1 : Shape := ⟨3, ![1, 2560, 1]⟩
abbrev S1x10000x128 : Shape := ⟨3, ![1, 10000, 128]⟩
abbrev S1x1x10000 : Shape := ⟨3, ![1, 1, 10000]⟩
abbrev S1x10000 : Shape := ⟨2, ![1, 10000]⟩
abbrev S1x256 : Shape := ⟨2, ![1, 256]⟩
abbrev S1x256x1 : Shape := ⟨3, ![1, 256, 1]⟩
abbrev S256x1 : Shape := ⟨2, ![256, 1]⟩
abbrev S256x10000 : Shape := ⟨2, ![256, 10000]⟩
abbrev S_ : Shape := ⟨0, ![]⟩
abbrev S10000x1 : Shape := ⟨2, ![10000, 1]⟩
abbrev S128x128 : Shape := ⟨2, ![128, 128]⟩
abbrev S1x128 : Shape := ⟨2, ![1, 128]⟩
abbrev S1000x128 : Shape := ⟨2, ![1000, 128]⟩
abbrev S2x1000x128 : Shape := ⟨3, ![2, 1000, 128]⟩
abbrev S1000x1 : Shape := ⟨2, ![1000, 1]⟩
abbrev S1x1000x128 : Shape := ⟨3, ![1, 1000, 128]⟩

abbrev nBuf : Space → Nat
  | .hbm => 19
  | .vmem => 22
  | .smem => 0
  | _ => 0

abbrev bufTy : (tb : Table) → Fin (tcTables nBuf tb) → BufTy
  | .hbm, ⟨0, _⟩ => ⟨S10000x128, .f32⟩
  | .hbm, ⟨1, _⟩ => ⟨S640000x1, .f32⟩
  | .hbm, ⟨2, _⟩ => ⟨S256x128, .f32⟩
  | .hbm, ⟨3, _⟩ => ⟨S128, .f32⟩
  | .hbm, ⟨4, _⟩ => ⟨S640000, .i32⟩
  | .hbm, ⟨5, _⟩ => ⟨S640000, .i32⟩
  | .hbm, ⟨6, _⟩ => ⟨S10000x128, .bf16⟩
  | .hbm, ⟨7, _⟩ => ⟨S2x320000x1, .i32⟩
  | .hbm, ⟨8, _⟩ => ⟨S2x320000x1, .i32⟩
  | .hbm, ⟨9, _⟩ => ⟨S2x320000x1, .f32⟩
  | .hbm, ⟨10, _⟩ => ⟨S2x10000x128, .f32⟩
  | .hbm, ⟨11, _⟩ => ⟨S2x1x10000, .f32⟩
  | .hbm, ⟨12, _⟩ => ⟨S_, .f32⟩
  | .hbm, ⟨13, _⟩ => ⟨S1x10000, .f32⟩
  | .hbm, ⟨14, _⟩ => ⟨S10000x1, .f32⟩
  | .hbm, ⟨15, _⟩ => ⟨S128x128, .f32⟩
  | .hbm, ⟨16, _⟩ => ⟨S128x128, .f32⟩
  | .hbm, ⟨17, _⟩ => ⟨S1x128, .f32⟩
  | .hbm, ⟨18, _⟩ => ⟨S10000x128, .f32⟩
  | .local _ .vmem, ⟨0, _⟩ => ⟨S10000x128, .bf16⟩
  | .local _ .vmem, ⟨1, _⟩ => ⟨S1x2560x1, .i32⟩
  | .local _ .vmem, ⟨2, _⟩ => ⟨S1x2560x1, .i32⟩
  | .local _ .vmem, ⟨3, _⟩ => ⟨S1x2560x1, .i32⟩
  | .local _ .vmem, ⟨4, _⟩ => ⟨S1x2560x1, .i32⟩
  | .local _ .vmem, ⟨5, _⟩ => ⟨S1x2560x1, .f32⟩
  | .local _ .vmem, ⟨6, _⟩ => ⟨S1x2560x1, .f32⟩
  | .local _ .vmem, ⟨7, _⟩ => ⟨S1x10000x128, .f32⟩
  | .local _ .vmem, ⟨8, _⟩ => ⟨S1x10000x128, .f32⟩
  | .local _ .vmem, ⟨9, _⟩ => ⟨S1x1x10000, .f32⟩
  | .local _ .vmem, ⟨10, _⟩ => ⟨S1x1x10000, .f32⟩
  | .local _ .vmem, ⟨11, _⟩ => ⟨S1000x128, .f32⟩
  | .local _ .vmem, ⟨12, _⟩ => ⟨S1000x128, .f32⟩
  | .local _ .vmem, ⟨13, _⟩ => ⟨S2x1000x128, .f32⟩
  | .local _ .vmem, ⟨14, _⟩ => ⟨S2x1000x128, .f32⟩
  | .local _ .vmem, ⟨15, _⟩ => ⟨S1000x1, .f32⟩
  | .local _ .vmem, ⟨16, _⟩ => ⟨S1000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S1000x128, .f32⟩
  | .local _ .vmem, ⟨21, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![2, 125], ![false, false]⟩

@[reducible] def k0_t1_loop : Scf.Loop 32 :=
  let c0_i32_2 : BitVec 32 := 0#32
  let c10_i32 : BitVec 32 := 10#32
  let v7 : BitVec 32 := Scalar.addi c0_i32_2 c10_i32
  let c1_i32 : BitVec 32 := 1#32
  ⟨c0_i32_2, v7, c1_i32⟩
def k0_mult1 (k0_t1 : Fin k0_t1_loop.trips) : BitVec 32 :=
  let c0_i32_5 : BitVec 32 := 0#32
  let c0_i32_2 : BitVec 32 := 0#32
  let c1_i32 : BitVec 32 := 1#32
  let arg8 : BitVec 32 := Scf.iv c0_i32_2 c1_i32 k0_t1
  let c1_i32_4 : BitVec 32 := 1#32
  let v8 : BitVec 32 := Scalar.muli arg8 c1_i32_4
  let v9 : BitVec 32 := Scalar.addi c0_i32_5 v8
  let c256_i32 : BitVec 32 := 256#32
  let v10 : BitVec 32 := Scalar.muli v9 c256_i32
  v10
def k0_off1 (k0_t1 : Fin k0_t1_loop.trips) : Fin 3 → Nat :=
  let c0_6 : Index := 0#32
  let c0_i32_5 : BitVec 32 := 0#32
  let c0_i32_2 : BitVec 32 := 0#32
  let c1_i32 : BitVec 32 := 1#32
  let arg8 : BitVec 32 := Scf.iv c0_i32_2 c1_i32 k0_t1
  let c1_i32_4 : BitVec 32 := 1#32
  let v8 : BitVec 32 := Scalar.muli arg8 c1_i32_4
  let v9 : BitVec 32 := Scalar.addi c0_i32_5 v8
  let c256_i32 : BitVec 32 := 256#32
  let v10 : BitVec 32 := Scalar.muli v9 c256_i32
  let v11 : BitVec 32 := v10
  let v12 : Index := Scalar.indexCast v11
  let c0_7 : Index := 0#32
  ![0, v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S10000x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2560x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2560x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2560x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  shapeCasts_S640000_S2x320000x1 : S640000.ShapeCasts S2x320000x1
  shapeCasts_S640000x1_S2x320000x1 : S640000x1.ShapeCasts S2x320000x1
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S10000x128 : S1x10000x128.ShapeCasts S10000x128
  shapeCasts_S10000x128_S1x10000x128 : S10000x128.ShapeCasts S1x10000x128
  inb_S1x1x10000_S1x1x10000_0_0_0 : ∀ a, (![0, 0, 0] : Fin 3 → Nat) a + S1x1x10000.size a ≤ S1x1x10000.size a
  h_S1x1x10000 : 0 < S1x1x10000.numel
  shapeCasts_S1x1x10000_S1x10000 : S1x1x10000.ShapeCasts S1x10000
  shapeCasts_S1x10000_S1x1x10000 : S1x10000.ShapeCasts S1x1x10000
  iota_S1x10000_d1_w32 : S1x10000.Iotas .tc 32 [1]
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  h_S1x256x1 : 0 < S1x256x1.numel
  shapeCasts_S1x256x1_S256x1 : S1x256x1.ShapeCasts S256x1
  broadcasts_S256x1_S256x10000 : S256x1.Broadcasts S256x10000
  broadcasts_S1x10000_S256x10000 : S1x10000.Broadcasts S256x10000
  natLt_1_32 : 1 < 32
  broadcasts_S256x1_S256x128 : S256x1.Broadcasts S256x128
  reducesTo_S2x1x10000_S1x10000_d0 : S2x1x10000.ReducesTo [0] S1x10000
  h_S_ : 0 < S_.numel
  shapeCasts_S1x10000_S10000x1 : S1x10000.ShapeCasts S10000x1
  slices_S256x128_S128x128_0_0 : S256x128.Slices ![0, 0] S128x128
  slices_S256x128_S128x128_128_0 : S256x128.Slices ![128, 0] S128x128
  shapeCasts_S128_S1x128 : S128.ShapeCasts S1x128
  inb_S2x1000x128_S1x1000x128_0_0_0 : ∀ a, (![0, 0, 0] : Fin 3 → Nat) a + S1x1000x128.size a ≤ S2x1000x128.size a
  h_S1x1000x128 : 0 < S1x1000x128.numel
  shapeCasts_S1x1000x128_S1000x128 : S1x1000x128.ShapeCasts S1000x128
  inb_S2x1000x128_S1x1000x128_1_0_0 : ∀ a, (![1, 0, 0] : Fin 3 → Nat) a + S1x1000x128.size a ≤ S2x1000x128.size a
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  dot_S256x10000_S10000x128_S256x128_1_0_0_1_n_n_wf : DotDims.WF S256x10000 S10000x128 S256x128 [1] [0] [0] [1] [] []
  dot_S256x10000_S256x128_S10000x128_0_0_1_1_n_n_wf : DotDims.WF S256x10000 S256x128 S10000x128 [0] [0] [1] [1] [] []
  dot_S1x256_S256x10000_S1x10000_1_0_0_1_n_n_wf : DotDims.WF S1x256 S256x10000 S1x10000 [1] [0] [0] [1] [] []
  dot_S1000x128_S128x128_S1000x128_1_0_0_1_n_n_wf : DotDims.WF S1000x128 S128x128 S1000x128 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x256x1.size a ≤ S1x2560x1.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .bf16 = 32 ∨ (Rect.block (s := S10000x128) S10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2560x1.size a ≤ S2x320000x1.size a
  hwx0_1 : ∀ i : grid0.Coords, EltTy.bits .i32 = 32 ∨ (Rect.block (s := S2x320000x1) S1x2560x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2560x1.size a ≤ S2x320000x1.size a
  hwx0_2 : ∀ i : grid0.Coords, EltTy.bits .i32 = 32 ∨ (Rect.block (s := S2x320000x1) S1x2560x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2560x1.size a ≤ S2x320000x1.size a
  hwx0_3 : ∀ i : grid0.Coords, EltTy.bits .f32 = 32 ∨ (Rect.block (s := S2x320000x1) S1x2560x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x10000x128.size a ≤ S2x10000x128.size a
  hwx0_4 : ∀ i : grid0.Coords, EltTy.bits .f32 = 32 ∨ (Rect.block (s := S2x10000x128) S1x10000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x10000.size a ≤ S2x1x10000.size a
  hwx0_5 : ∀ i : grid0.Coords, EltTy.bits .f32 = 32 ∨ (Rect.block (s := S2x1x10000) S1x1x10000.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x1000x128.size a ≤ S2x10000x128.size a
  hwx1_1 : ∀ i : grid1.Coords, EltTy.bits .f32 = 32 ∨ (Rect.block (s := S2x10000x128) S2x1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S10000x1.size a
  hwx1_2 : ∀ i : grid1.Coords, EltTy.bits .f32 = 32 ∨ (Rect.block (s := S10000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S10000x128.size a
  hwx1_6 : ∀ i : grid1.Coords, EltTy.bits .f32 = 32 ∨ (Rect.block (s := S10000x128) S1000x128.size (cc1_transform_6 i) (hinb1_6 i)).WholeWords (EltTy.packing .f32)

variable [Facts₀]

def dot_S256x10000_S10000x128_S256x128_1_0_0_1_n_n : DotDims S256x10000 S10000x128 S256x128 where
  lhsContracting := [1]
  rhsContracting := [0]
  lhsNonContracting := [0]
  rhsNonContracting := [1]
  lhsBatch := []
  rhsBatch := []
  wf := dot_S256x10000_S10000x128_S256x128_1_0_0_1_n_n_wf
def dot_S256x10000_S256x128_S10000x128_0_0_1_1_n_n : DotDims S256x10000 S256x128 S10000x128 where
  lhsContracting := [0]
  rhsContracting := [0]
  lhsNonContracting := [1]
  rhsNonContracting := [1]
  lhsBatch := []
  rhsBatch := []
  wf := dot_S256x10000_S256x128_S10000x128_0_0_1_1_n_n_wf
def dot_S1x256_S256x10000_S1x10000_1_0_0_1_n_n : DotDims S1x256 S256x10000 S1x10000 where
  lhsContracting := [1]
  rhsContracting := [0]
  lhsNonContracting := [0]
  rhsNonContracting := [1]
  lhsBatch := []
  rhsBatch := []
  wf := dot_S1x256_S256x10000_S1x10000_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2560x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2560x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2560x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x10000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x1x10000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S2x1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x128 : Shape := ⟨2, ![10000, 128]⟩
abbrev S640000x1 : Shape := ⟨2, ![640000, 1]⟩
abbrev S256x128 : Shape := ⟨2, ![256, 128]⟩
abbrev S128 : Shape := ⟨1, ![128]⟩
abbrev S640000 : Shape := ⟨1, ![640000]⟩
abbrev S_ : Shape := ⟨0, ![]⟩
abbrev S640000x128 : Shape := ⟨2, ![640000, 128]⟩
abbrev S10000 : Shape := ⟨1, ![10000]⟩
abbrev S10000x1 : Shape := ⟨2, ![10000, 1]⟩
abbrev S10000x256 : Shape := ⟨2, ![10000, 256]⟩
abbrev S1x128 : Shape := ⟨2, ![1, 128]⟩

abbrev nBuf : Space → Nat
  | .hbm => 38
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000x1, .f32⟩
  | .hbm, ⟨2, _⟩ => ⟨S256x128, .f32⟩
  | .hbm, ⟨3, _⟩ => ⟨S128, .f32⟩
  | .hbm, ⟨4, _⟩ => ⟨S640000, .i32⟩
  | .hbm, ⟨5, _⟩ => ⟨S640000, .i32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S640000x128, .f32⟩
  | .hbm, ⟨16, _⟩ => ⟨S640000x128, .f32⟩
  | .hbm, ⟨17, _⟩ => ⟨S_, .f32⟩
  | .hbm, ⟨18, _⟩ => ⟨S10000x128, .f32⟩
  | .hbm, ⟨19, _⟩ => ⟨S640000x1, .i32⟩
  | .hbm, ⟨20, _⟩ => ⟨S10000x128, .f32⟩
  | .hbm, ⟨21, _⟩ => ⟨S_, .f32⟩
  | .hbm, ⟨22, _⟩ => ⟨S640000, .f32⟩
  | .hbm, ⟨23, _⟩ => ⟨S_, .f32⟩
  | .hbm, ⟨24, _⟩ => ⟨S10000, .f32⟩
  | .hbm, ⟨25, _⟩ => ⟨S640000x1, .i32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S10000x1, .f32⟩
  | .hbm, ⟨31, _⟩ => ⟨S10000x128, .f32⟩
  | .hbm, ⟨32, _⟩ => ⟨S10000x128, .f32⟩
  | .hbm, ⟨33, _⟩ => ⟨S10000x256, .f32⟩
  | .hbm, ⟨34, _⟩ => ⟨S10000x128, .f32⟩
  | .hbm, ⟨35, _⟩ => ⟨S1x128, .f32⟩
  | .hbm, ⟨36, _⟩ => ⟨S10000x128, .f32⟩
  | .hbm, ⟨37, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x256_S256x128_S10000x128_1_0_0_1_n_n_wf : DotDims.WF S10000x256 S256x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.MeanAggSpec.lean ====
/- The layer both programs compute, over plain finite index types and the extended reals.

   A graph of 10000 nodes with 128 features each and 640000 weighted edges. Edge e carries the message
   msg e = h[src e] · w e (the row of its source node, scaled by its weight), written with the source picked out by an
   indicator sum over the nodes so that it is defined for every word src e. Node n collects S n = the sum of msg e over
   the edges with dst e = n, and its in-degree D n = the number of those edges; an edge whose dst names no node
   contributes to nothing. The node's mean is S n / max (D n) 1, and the layer's output row is
   h n · W₁ + mean n · W₂ + b with W₁, W₂ the upper and lower 128 rows of the 256-row weight matrix.

   The same sums are also stated the way a blocked accumulation meets them: the edges split into two halves of 320000
   (one per core), each half into 1250 blocks of 256, and acc c J = the sum of the first J blocks' contributions on
   half c. -/
import Idealize.ShloMosaic.PureOps.Ideal

noncomputable section

namespace Cert.MeanAgg

open Idealize.ShloMosaic

/-- Node n's id as a 32-bit word. -/
def node (n : Fin 10000) : BitVec 32 := BitVec.ofNat 32 n.val

/-- The upper half of the weight matrix's rows (those that meet h). -/
def lo (k : Fin 128) : Fin 256 := ⟨k.val, by omega⟩
/-- The lower half (those that meet the neighbourhood mean). -/
def hi (k : Fin 128) : Fin 256 := ⟨128 + k.val, by omega⟩

/-- Edge r of half c among all edges. -/
def flat (c : Fin 2) (r : Fin 320000) : Fin 640000 := ⟨c.val * 320000 + r.val, by omega⟩
/-- Edge e of block j within a half. -/
def row (j : Fin 1250) (e : Fin 256) : Fin 320000 := ⟨j.val * 256 + e.val, by omega⟩

section Flat

variable (hF : Fin 10000 → Fin 128 → EReal) (WF : Fin 256 → Fin 128 → EReal) (bF : Fin 128 → EReal)
  (srcF dstF : Fin 640000 → BitVec 32) (wF : Fin 640000 → EReal)

/-- The message of edge e at feature d. -/
def msgF (e : Fin 640000) (d : Fin 128) : EReal :=
  (∑ n : Fin 10000, if srcF e = node n then hF n d else 0) * wF e

/-- What node n collects at feature d. -/
def hsumF (n : Fin 10000) (d : Fin 128) : EReal :=
  ∑ e : Fin 640000, if dstF e = node n then msgF hF srcF wF e d else 0

/-- Node n's in-degree. -/
def degF (n : Fin 10000) : EReal :=
  ∑ e : Fin 640000, if dstF e = node n then (1 : EReal) else 0

/-- The output row of node n from a collected sum S and a degree D. -/
def outOf (S : Fin 10000 → Fin 128 → EReal) (D : Fin 10000 → EReal) (n : Fin 10000) (d : Fin 128) : EReal :=
  (∑ k : Fin 128, hF n k * WF (lo k) d) + (∑ k : Fin 128, Ideal.div (S n k) (max (D n) 1) * WF (hi k) d) + bF d

/-- The layer. -/
def out (n : Fin 10000) (d : Fin 128) : EReal :=
  outOf hF WF bF (hsumF hF srcF dstF wF) (degF dstF) n d

end Flat

section Halves

variable (hF : Fin 10000 → Fin 128 → EReal) (srcC dstC : Fin 2 → Fin 320000 → BitVec 32) (wC : Fin 2 → Fin 320000 → EReal)

/-- The message of edge r of half c. -/
def msgC (c : Fin 2) (r : Fin 320000) (d : Fin 128) : EReal :=
  (∑ n : Fin 10000, if srcC c r = node n then hF n d else 0) * wC c r

/-- What block j of half c adds to node n at feature d. -/
def contribC (c : Fin 2) (j : Fin 1250) (n : Fin 10000) (d : Fin 128) : EReal :=
  ∑ e : Fin 256, if dstC c (row j e) = node n then msgC hF srcC wC c (row j e) d else 0

/-- What block j of half c adds to node n's degree. -/
def degContribC (c : Fin 2) (j : Fin 1250) (n : Fin 10000) : EReal :=
  ∑ e : Fin 256, if dstC c (row j e) = node n then (1 : EReal) else 0

/-- The first J blocks of half c, summed. -/
def accC (c : Fin 2) (J : ℕ) (n : Fin 10000) (d : Fin 128) : EReal :=
  ∑ j ∈ Finset.range J, if hj : j < 1250 then contribC hF srcC dstC wC c ⟨j, hj⟩ n d else 0

/-- Their degree counts, summed. -/
def degC (c : Fin 2) (J : ℕ) (n : Fin 10000) : EReal :=
  ∑ j ∈ Finset.range J, if hj : j < 1250 then degContribC dstC c ⟨j, hj⟩ n else 0

end Halves

end Cert.MeanAgg

end
-- ==== Proof.HostReads.lean ====
/- The host operations around the two kernel regions, read at an entry over the extended reals.
   Before the aggregation region: the node features pass through a change of float format (the identity on extended
   reals), and the two id arrays and the weights are re-laid from 640000 entries to two halves of 320000 (entry r of
   half c is entry c·320000 + r). Between the regions: the two halves' degree rows are added from zero and re-laid as a
   column, the weight matrix is cut into its upper and lower 128 rows, and the bias becomes a row. No host operation and
   no region writes an argument, and the linear region finds the aggregation region's two result arrays as it left them. -/
import proofs.«422423_j81836306858014_3_alg».proof.Proof.Gen.KernelIdeal.Frame
import proofs.«422423_j81836306858014_3_alg».proof.Proof.MeanAggSpec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.HostValue

open Cert.KernelIdeal Cert.KernelIdeal.Gen Cert.MeanAgg
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Before the aggregation region -/

/-- The features the region stages are the launched ones. -/
theorem V1_v0 (c : Dev nD) :
    (V1 m ρ c main_v0 : S10000x128.Idx → EReal) = (m ((c : Thread nD τ).loc main_arg0) : S10000x128.Idx → EReal) := by
  show StableHlo.after hostOps0 (W0 m ρ c) (Proc.devRef .tc main_v0) = _
  after_results
  rfl

/-- Entry r of half c of the re-laid source ids is source id c·320000 + r. -/
theorem V1_v1_apply (c : Dev nD) (cc : Fin 2) (r : Fin 320000) :
    (V1 m ρ c main_v1 : S2x320000x1.Idx → BitVec 32) (ix3 cc r 0)
      = (m ((c : Thread nD τ).loc main_arg4) : S640000.Idx → BitVec 32) (ix1 (flat cc r)) := by
  have e : (V1 m ρ c main_v1 : S2x320000x1.Idx → BitVec 32)
      = shapeCast S2x320000x1 (m ((c : Thread nD τ).loc main_arg4) : S640000.Idx → BitVec 32) shapeCasts_S640000_S2x320000x1 := by
    show StableHlo.after hostOps0 (W0 m ρ c) (Proc.devRef .tc main_v1) = _
    after_results
    rfl
  rw [e]
  refine shapeCast_apply _ _ _ _ ?_
  show ((⟨1, ![640000]⟩ : Shape).rowMajor (ix1 (flat cc r))).val = ((⟨3, ![2, 320000, 1]⟩ : Shape).rowMajor (ix3 cc r 0)).val
  rw [Shape.rowMajor_val_one, Shape.rowMajor_val_three]
  show (flat cc r).val = (cc.val * 320000 + r.val) * 1 + 0
  unfold flat; simp

/-- The same for the destination ids. -/
theorem V1_v2_apply (c : Dev nD) (cc : Fin 2) (r : Fin 320000) :
    (V1 m ρ c main_v2 : S2x320000x1.Idx → BitVec 32) (ix3 cc r 0)
      = (m ((c : Thread nD τ).loc main_arg5) : S640000.Idx → BitVec 32) (ix1 (flat cc r)) := by
  have e : (V1 m ρ c main_v2 : S2x320000x1.Idx → BitVec 32)
      = shapeCast S2x320000x1 (m ((c : Thread nD τ).loc main_arg5) : S640000.Idx → BitVec 32) shapeCasts_S640000_S2x320000x1 := by
    show StableHlo.after hostOps0 (W0 m ρ c) (Proc.devRef .tc main_v2) = _
    after_results
    rfl
  rw [e]
  refine shapeCast_apply _ _ _ _ ?_
  show ((⟨1, ![640000]⟩ : Shape).rowMajor (ix1 (flat cc r))).val = ((⟨3, ![2, 320000, 1]⟩ : Shape).rowMajor (ix3 cc r 0)).val
  rw [Shape.rowMajor_val_one, Shape.rowMajor_val_three]
  show (flat cc r).val = (cc.val * 320000 + r.val) * 1 + 0
  unfold flat; simp

/-- And for the edge weights, a column of 640000. -/
theorem V1_v3_apply (c : Dev nD) (cc : Fin 2) (r : Fin 320000) :
    (V1 m ρ c main_v3 : S2x320000x1.Idx → EReal) (ix3 cc r 0)
      = (m ((c : Thread nD τ).loc main_arg1) : S640000x1.Idx → EReal) (ix2 (flat cc r) 0) := by
  have e : (V1 m ρ c main_v3 : S2x320000x1.Idx → EReal)
      = shapeCast S2x320000x1 (m ((c : Thread nD τ).loc main_arg1) : S640000x1.Idx → EReal) shapeCasts_S640000x1_S2x320000x1 := by
    show StableHlo.after hostOps0 (W0 m ρ c) (Proc.devRef .tc main_v3) = _
    after_results
    rfl
  rw [e]
  refine shapeCast_apply _ _ _ _ ?_
  show ((⟨2, ![640000, 1]⟩ : Shape).rowMajor (ix2 (flat cc r) 0)).val = ((⟨3, ![2, 320000, 1]⟩ : Shape).rowMajor (ix3 cc r 0)).val
  rw [Shape.rowMajor_val_two, Shape.rowMajor_val_three]
  show (flat cc r).val * 1 + 0 = (cc.val * 320000 + r.val) * 1 + 0
  unfold flat; simp

/-! ## Between the regions -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

/-- The linear region finds the launched features. -/
theorem V3_arg0 (c : Dev nD) : V3 m ρ c main_arg0 = m ((c : Thread nD τ).loc main_arg0) :=
  (StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg0 m ρ c)

/-- It finds the aggregation region's collected sums as that region's write-backs left them. -/
theorem V3_v4_0 (c : Dev nD) : V3 m ρ c main_v4_0 = (dat0 (V1 m ρ) c).arrAt 4 cfg0.N :=
  (StableHlo.after_of_forall_not_mem (b := Proc.devRef .tc main_v4_0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arr m ρ c 4)

/-- Half cc's degree row as the aggregation region's write-backs left it. -/
def degRow (c : Dev nD) : Fin 2 → Fin 10000 → EReal :=
  fun cc n => ((dat0 (V1 m ρ) c).arrAt 5 cfg0.N : S2x1x10000.Idx → EReal) (ix3 cc 0 n)

/-- The degree column: entry n is the two halves' degree rows at n, added from zero. -/
theorem V3_v6_apply (c : Dev nD) (n : Fin 10000) :
    (V3 m ρ c main_v6 : S10000x1.Idx → EReal) (ix2 n 0) = 0 + (degRow m ρ c 0 n + degRow m ρ c 1 n) := by
  have e : (V3 m ρ c main_v6 : S10000x1.Idx → EReal)
      = shapeCast S10000x1 (Host.reduceAdd (F := Ideal) (W2 m ρ c (Proc.devRef .tc main_v4_1) : S2x1x10000.Idx → EReal)
          (constant (F := Ideal) S_ .f32 0x00000000#32) reducesTo_S2x1x10000_S1x10000_d0 h_S_) shapeCasts_S1x10000_S10000x1 := by
    show StableHlo.after hostOps1 (W2 m ρ c) (Proc.devRef .tc main_v6) = _
    after_results
    rfl
  rw [e, shapeCast_apply _ _ (ix2 n 0) (ix2 0 n) (by
    show ((⟨2, ![1, 10000]⟩ : Shape).rowMajor (ix2 0 n)).val = ((⟨2, ![10000, 1]⟩ : Shape).rowMajor (ix2 n 0)).val
    rw [Shape.rowMajor_val_two, Shape.rowMajor_val_two]
    show 0 * 10000 + n.val = n.val * 1 + 0
    omega)]
  unfold Host.reduceAdd
  rw [Ideal.hostReduceAdd_def, Ideal.hostReduceAdd_single _ (by decide : S2x1x10000.Reduces [0] S1x10000)]
  have hl : ∀ cc : Fin 2, (W2 m ρ c (Proc.devRef .tc main_v4_1) : S2x1x10000.Idx → EReal)
      ((by decide : S2x1x10000.Reduces [0] S1x10000).lift (ix2 0 n) cc) = degRow m ρ c cc n := fun cc => by
    unfold degRow
    rw [← W2_arr m ρ c 5]
    exact congrArg _ (funext fun a => Fin.ext (by
      match a with
      | ⟨0, _⟩ => rfl
      | ⟨1, _⟩ => rfl
      | ⟨2, _⟩ => rfl))
  show Ideal.ofBits .f32 0x00000000#32 + ∑ k : Fin 2, _ = _
  rw [Ideal.ofBits_zero_f32, Fin.sum_univ_two, hl 0, hl 1]

/-- The upper 128 rows of the weight matrix. -/
theorem V3_v7_apply (c : Dev nD) (k d : Fin 128) :
    (V3 m ρ c main_v7 : S128x128.Idx → EReal) (ix2 k d)
      = (m ((c : Thread nD τ).loc main_arg2) : S256x128.Idx → EReal) (ix2 (lo k) d) := by
  have e : (V3 m ρ c main_v7 : S128x128.Idx → EReal)
      = extractStridedSlice S128x128 ![0, 0] (W2 m ρ c (Proc.devRef .tc main_arg2) : S256x128.Idx → EReal) slices_S256x128_S128x128_0_0 := by
    show StableHlo.after hostOps1 (W2 m ρ c) (Proc.devRef .tc main_v7) = _
    after_results
  rw [e, W2_main_arg2 m ρ c]
  exact extractStridedSlice_apply _ _ _ (ix2 k d) (ix2 (lo k) d) (fun a => by
    match a with
    | ⟨0, _⟩ => exact (by show (lo k).val = 0 + k.val; simp [lo])
    | ⟨1, _⟩ => exact (by show d.val = 0 + d.val; omega))

/-- The lower 128 rows. -/
theorem V3_v8_apply (c : Dev nD) (k d : Fin 128) :
    (V3 m ρ c main_v8 : S128x128.Idx → EReal) (ix2 k d)
      = (m ((c : Thread nD τ).loc main_arg2) : S256x128.Idx → EReal) (ix2 (hi k) d) := by
  have e : (V3 m ρ c main_v8 : S128x128.Idx → EReal)
      = extractStridedSlice S128x128 ![128, 0] (W2 m ρ c (Proc.devRef .tc main_arg2) : S256x128.Idx → EReal) slices_S256x128_S128x128_128_0 := by
    show StableHlo.after hostOps1 (W2 m ρ c) (Proc.devRef .tc main_v8) = _
    after_results
  rw [e, W2_main_arg2 m ρ c]
  exact extractStridedSlice_apply _ _ _ (ix2 k d) (ix2 (hi k) d) (fun a => by
    match a with
    | ⟨0, _⟩ => exact (by show (hi k).val = 128 + k.val; simp [hi])
    | ⟨1, _⟩ => exact (by show d.val = 0 + d.val; omega))

/-- The bias as a row. -/
theorem V3_v9_apply (c : Dev nD) (d : Fin 128) :
    (V3 m ρ c main_v9 : S1x128.Idx → EReal) (ix2 0 d)
      = (m ((c : Thread nD τ).loc main_arg3) : S128.Idx → EReal) (ix1 d) := by
  have e : (V3 m ρ c main_v9 : S1x128.Idx → EReal)
      = shapeCast S1x128 (W2 m ρ c (Proc.devRef .tc main_arg3) : S128.Idx → EReal) shapeCasts_S128_S1x128 := by
    show StableHlo.after hostOps1 (W2 m ρ c) (Proc.devRef .tc main_v9) = _
    after_results
    rfl
  rw [e, W2_main_arg3 m ρ c]
  refine shapeCast_apply _ _ _ _ ?_
  show ((⟨1, ![128]⟩ : Shape).rowMajor (ix1 d)).val = ((⟨2, ![1, 128]⟩ : Shape).rowMajor (ix2 0 d)).val
  rw [Shape.rowMajor_val_one, Shape.rowMajor_val_two]
  show d.val = 0 * 128 + d.val
  omega

end Cert.KernelIdeal.HostValue

end
-- ==== Proof.AggFold.lean ====
/- The aggregation kernel's inner loop as a value. At one grid point the kernel holds a block of 2560 edges (their
   source ids, destination ids and weights) and walks it in ten trips of 256 edges. A trip adds, to the feature
   accumulator, its 256 edges' messages scattered to their destination rows, and to the degree accumulator the count
   of its edges per destination; each is one whole-buffer store of a pure function of the accumulator's contents and
   the trip's 256 rows. The first K trips are the K-fold composition of that step. Everything here holds for any
   float values. -/
import proofs.«422423_j81836306858014_3_alg».proof.Proof.Gen.KernelIdeal.Skeleton
import Idealize.ShloMosaic.Lib.Pipeline.FrameBody

noncomputable section

namespace Cert.KernelIdeal.Agg

open Cert.KernelIdeal Cert.KernelIdeal.Gen
open Idealize.ShloMosaic Idealize.SL.Sem

variable {F : FTy → Type} [FloatOps F]

/-- The node ids 0 … 9999 laid along a row: what a block's source and destination ids are compared with. -/
abbrev nodeRow : IVec S1x10000 32 := iota .tc S1x10000 32 [1] iota_S1x10000_d1_w32

/-- The 256 edges trip k takes from a block of 2560. -/
abbrev tripRect (k : Fin k0_t1_loop.trips) : Rect S1x2560x1 :=
  Rect.unit (s := S1x2560x1) (k0_off1 k) S1x256x1.size (k0_off1_inb k)

/-- One trip on the feature accumulator a: a plus the trip's messages, each added to its destination's row. -/
def accStep (x0 : Vec F S10000x128 .bf16) (x1 x2 : Vec F S1x2560x1 .i32) (x3 : Vec F S1x2560x1 .f32)
    (k : Fin k0_t1_loop.trips) (a : Vec F S1x10000x128 .f32) : Vec F S1x10000x128 .f32 :=
  k0_pay8 nodeRow (k0_pay3 x0) (View.ld x1 (tripRect k)) (View.ld x2 (tripRect k)) (View.ld x3 (tripRect k)) a

/-- One trip on the degree accumulator g: g plus the number of the trip's edges per destination. -/
def degStep (x2 : Vec F S1x2560x1 .i32) (k : Fin k0_t1_loop.trips) (g : Vec F S1x1x10000 .f32) : Vec F S1x1x10000 .f32 :=
  k0_pay5 (k0_pay7 nodeRow k0_pay4 (View.ld x2 (tripRect k))) g

/-- The first K trips on the feature accumulator, from a. -/
def accFold (x0 : Vec F S10000x128 .bf16) (x1 x2 : Vec F S1x2560x1 .i32) (x3 : Vec F S1x2560x1 .f32) :
    ℕ → Vec F S1x10000x128 .f32 → Vec F S1x10000x128 .f32
  | 0, a => a
  | K + 1, a =>
    if h : K < k0_t1_loop.trips then accStep x0 x1 x2 x3 ⟨K, h⟩ (accFold x0 x1 x2 x3 K a) else accFold x0 x1 x2 x3 K a

/-- The first K trips on the degree accumulator, from g. -/
def degFold (x2 : Vec F S1x2560x1 .i32) : ℕ → Vec F S1x1x10000 .f32 → Vec F S1x1x10000 .f32
  | 0, g => g
  | K + 1, g => if h : K < k0_t1_loop.trips then degStep x2 ⟨K, h⟩ (degFold x2 K g) else degFold x2 K g

end Cert.KernelIdeal.Agg

end
-- ==== Proof.AggLoop.lean ====
/- What one grid point of the aggregation kernel leaves in its two accumulators: the ten trips' fold, from the
   accumulators' contents at the point before (a point inside a core's run) or from zero (a core's first point). -/
import proofs.«422423_j81836306858014_3_alg».proof.Proof.Gen.KernelIdeal.Frame
import proofs.«422423_j81836306858014_3_alg».proof.Proof.AggFold
import Idealize.ShloMosaic.Lib.Pipeline.Value

set_option maxRecDepth 16384

noncomputable section

namespace Cert.KernelIdeal.Agg

open Cert.KernelIdeal Cert.KernelIdeal.Gen
open Idealize.ShloMosaic Idealize.ShloMosaic.TcCoe Idealize.SL.Sem

variable {F : FTy → Type} [FloatOps F]

/-- The zero offsets of a rank-3 whole-buffer rectangle, as the constant function. -/
theorem loop_zeros3 : (![0, 0, 0] : Fin 3 → Nat) = fun _ => 0 := funext fun a => by fin_cases a <;> rfl

/-- One trip on the feature accumulator. Its single piece is a store over the whole buffer, so the buffer afterwards
    reads as that store's payload; the payload's loads of the three edge blocks read rows k*256 … k*256+255 of the
    blocks' contents, and its load of the accumulator reads the contents the trip found there. -/
theorem loop_trip_acc (𝒱 : Variants) (c : Dev nD) (bd : Option 𝒱.V) (i : grid0.Coords) (arg2 : Memref sig .tc .vmem S10000x128 .bf16) (harg2 : arg2.IsWhole) (arg3 : Memref sig .tc .vmem S1x2560x1 .i32) (harg3 : arg3.IsWhole) (arg4 : Memref sig .tc .vmem S1x2560x1 .i32) (harg4 : arg4.IsWhole) (arg5 : Memref sig .tc .vmem S1x2560x1 .f32) (harg5 : arg5.IsWhole) (arg6 : Memref sig .tc .vmem S1x10000x128 .f32) (harg6 : arg6.IsWhole) (arg7 : Memref sig .tc .vmem S1x1x10000 .f32) (harg7 : arg7.IsWhole) (v3 : IVec S1x10000 32) (v4 : Vec F S10000x128 .bf16) (x1 x2 : Vec F S1x2560x1 .i32) (x3 : Vec F S1x2560x1 .f32) (k : Fin k0_t1_loop.trips) (f6 : BufTy.Contents (Elt F) arg6.view.ty) (f7 : BufTy.Contents (Elt F) arg7.view.ty) :
    arg6.view.read (Elt F) (arg6.view.writes (Elt F) f6 ((trip_k0_t1 (F := F) 𝒱 c bd i arg2 harg2 arg3 harg3 arg4 harg4 arg5 harg5 arg6 harg6 arg7 harg7 v3 v4 (harg3.unread x1) (harg4.unread x2) (harg5.unread x3) k).1 f6 f7))
      = k0_pay8 v3 (k0_pay3 v4) (View.ld x1 (tripRect k)) (View.ld x2 (tripRect k)) (View.ld x3 (tripRect k)) (arg6.view.read (Elt F) f6) := by
  unfold trip_k0_t1
  dsimp only
  rw [View.read_writes_eq_canon _ _ _ (fun y => by refine ⟨_, List.mem_singleton_self _, ?_⟩; exact View.mem_set_unit_zero loop_zeros3 inb_S1x10000x128_S1x10000x128_0_0_0 y)]
  rw [View.canon_unit_zero loop_zeros3]
  simp only [View.readAt_eq_ld, harg3.read_unread, harg4.read_unread, harg5.read_unread, View.ld_unit_zero (S := S1x10000x128) loop_zeros3]

/-- One trip on the degree accumulator: likewise one whole-buffer store, whose payload adds to the contents found the
    per-destination count of the trip's 256 destination ids compared with the node row. -/
theorem loop_trip_deg (𝒱 : Variants) (c : Dev nD) (bd : Option 𝒱.V) (i : grid0.Coords) (arg2 : Memref sig .tc .vmem S10000x128 .bf16) (harg2 : arg2.IsWhole) (arg3 : Memref sig .tc .vmem S1x2560x1 .i32) (harg3 : arg3.IsWhole) (arg4 : Memref sig .tc .vmem S1x2560x1 .i32) (harg4 : arg4.IsWhole) (arg5 : Memref sig .tc .vmem S1x2560x1 .f32) (harg5 : arg5.IsWhole) (arg6 : Memref sig .tc .vmem S1x10000x128 .f32) (harg6 : arg6.IsWhole) (arg7 : Memref sig .tc .vmem S1x1x10000 .f32) (harg7 : arg7.IsWhole) (v3 : IVec S1x10000 32) (v4 : Vec F S10000x128 .bf16) (x1 x2 : Vec F S1x2560x1 .i32) (x3 : Vec F S1x2560x1 .f32) (k : Fin k0_t1_loop.trips) (f6 : BufTy.Contents (Elt F) arg6.view.ty) (f7 : BufTy.Contents (Elt F) arg7.view.ty) :
    arg7.view.read (Elt F) (arg7.view.writes (Elt F) f7 ((trip_k0_t1 (F := F) 𝒱 c bd i arg2 harg2 arg3 harg3 arg4 harg4 arg5 harg5 arg6 harg6 arg7 harg7 v3 v4 (harg3.unread x1) (harg4.unread x2) (harg5.unread x3) k).2.1 f6 f7))
      = k0_pay5 (k0_pay7 v3 k0_pay4 (View.ld x2 (tripRect k))) (arg7.view.read (Elt F) f7) := by
  unfold trip_k0_t1
  dsimp only
  rw [View.read_writes_eq_canon _ _ _ (fun y => by refine ⟨_, List.mem_singleton_self _, ?_⟩; exact View.mem_set_unit_zero loop_zeros3 inb_S1x1x10000_S1x1x10000_0_0_0 y)]
  rw [View.canon_unit_zero loop_zeros3]
  sl_unfold_words
  simp only [View.readAt_eq_ld, harg3.read_unread, harg4.read_unread, harg5.read_unread, View.ld_unit_zero (S := S1x1x10000) loop_zeros3]
  rfl

/-- The first K trips, K at most ten. Both accumulators are carried together, since a trip's pieces are functions of
    both contents: after the pieces of the first K trips are written over the entry contents G6, G7, the feature
    accumulator reads as the K-fold of the feature step from what G6 reads as, and the degree accumulator as the K-fold
    of the degree step from what G7 reads as. Induction on K: trip K's pieces go in front of the earlier trips', and
    writing a concatenation is writing its front over its back. -/
theorem loop_fold (𝒱 : Variants) (c : Dev nD) (bd : Option 𝒱.V) (i : grid0.Coords) (arg2 : Memref sig .tc .vmem S10000x128 .bf16) (harg2 : arg2.IsWhole) (arg3 : Memref sig .tc .vmem S1x2560x1 .i32) (harg3 : arg3.IsWhole) (arg4 : Memref sig .tc .vmem S1x2560x1 .i32) (harg4 : arg4.IsWhole) (arg5 : Memref sig .tc .vmem S1x2560x1 .f32) (harg5 : arg5.IsWhole) (arg6 : Memref sig .tc .vmem S1x10000x128 .f32) (harg6 : arg6.IsWhole) (arg7 : Memref sig .tc .vmem S1x1x10000 .f32) (harg7 : arg7.IsWhole) (x0 : Vec F S10000x128 .bf16) (x1 x2 : Vec F S1x2560x1 .i32) (x3 : Vec F S1x2560x1 .f32) (G6 : BufTy.Contents (Elt F) arg6.view.ty) (G7 : BufTy.Contents (Elt F) arg7.view.ty) :
    ∀ K : ℕ, K ≤ k0_t1_loop.trips →
      arg6.view.read (Elt F) (arg6.view.writes (Elt F) G6 (pb_k0_t1 (F := F) 𝒱 c bd i arg2 harg2 arg3 harg3 arg4 harg4 arg5 harg5 arg6 harg6 arg7 harg7 nodeRow x0 (harg3.unread x1) (harg4.unread x2) (harg5.unread x3) G6 G7 K).1) = accFold x0 x1 x2 x3 K (arg6.view.read (Elt F) G6)
      ∧ arg7.view.read (Elt F) (arg7.view.writes (Elt F) G7 (pb_k0_t1 (F := F) 𝒱 c bd i arg2 harg2 arg3 harg3 arg4 harg4 arg5 harg5 arg6 harg6 arg7 harg7 nodeRow x0 (harg3.unread x1) (harg4.unread x2) (harg5.unread x3) G6 G7 K).2) = degFold x2 K (arg7.view.read (Elt F) G7)
  | 0, _ => ⟨rfl, rfl⟩
  | K + 1, hK => by
    have h : K < k0_t1_loop.trips := hK
    obtain ⟨ih6, ih7⟩ := loop_fold 𝒱 c bd i arg2 harg2 arg3 harg3 arg4 harg4 arg5 harg5 arg6 harg6 arg7 harg7 x0 x1 x2 x3 G6 G7 K (Nat.le_of_lt h)
    have e := pb_k0_t1_succ (F := F) 𝒱 c bd i arg2 harg2 arg3 harg3 arg4 harg4 arg5 harg5 arg6 harg6 arg7 harg7 nodeRow x0 (harg3.unread x1) (harg4.unread x2) (harg5.unread x3) G6 G7 ⟨K, h⟩
    dsimp only at e
    rw [e]
    dsimp only
    rw [View.writes_append, View.writes_append, loop_trip_acc, loop_trip_deg, ih6, ih7]
    constructor
    · rw [accFold, dif_pos h]; rfl
    · rw [degFold, dif_pos h]; rfl

/-- The zero offsets of a rank-2 whole-buffer rectangle, as the constant function. -/
theorem loop_zeros2 : (![0, 0] : Fin 2 → Nat) = fun _ => 0 := funext fun a => by fin_cases a <;> rfl

/-- The whole-buffer load of the feature table reads its contents. -/
theorem loop_read_x0 (arg2 : Memref sig .tc .vmem S10000x128 .bf16) (harg2 : arg2.IsWhole) (x0 : Vec F S10000x128 .bf16) :
    View.readAt (Elt F) arg2.view (Rect.unit (s := S10000x128) ![0, 0] ![10000, 128] inb_S10000x128_S10000x128_0_0).toLoadRect (harg2.unread x0) = x0 := by
  rw [View.readAt_eq_ld, harg2.read_unread]
  exact View.ld_unit_zero (S := S10000x128) loop_zeros2 inb_S10000x128_S10000x128_0_0 x0

/-- A point inside a core's run, feature accumulator: the point's pieces cover the buffer, so what they leave does not
    depend on the buffer they are written through; through the point's own accumulator, holding xo4, they are the ten
    trips' pieces over the entry contents, which read as the ten-fold from xo4. -/
theorem out0_B_4_eq (c : Dev nD) (i : grid0.Coords) (arg2 : Memref sig .tc .vmem S10000x128 .bf16) (harg2 : arg2.IsWhole) (arg3 : Memref sig .tc .vmem S1x2560x1 .i32) (harg3 : arg3.IsWhole) (arg4 : Memref sig .tc .vmem S1x2560x1 .i32) (harg4 : arg4.IsWhole) (arg5 : Memref sig .tc .vmem S1x2560x1 .f32) (harg5 : arg5.IsWhole) (arg6 : Memref sig .tc .vmem S1x10000x128 .f32) (harg6 : arg6.IsWhole) (arg7 : Memref sig .tc .vmem S1x1x10000 .f32) (harg7 : arg7.IsWhole) (hc0 : ¬cond0_0 i) (x0 : Vec F S10000x128 .bf16) (x1 : Vec F S1x2560x1 .i32) (x2 : Vec F S1x2560x1 .i32) (x3 : Vec F S1x2560x1 .f32) (xo4 : Vec F S1x10000x128 .f32) (xo5 : Vec F S1x1x10000 .f32) :
    out0_B_4 c i arg2 harg2 arg3 harg3 arg4 harg4 arg5 harg5 arg6 harg6 arg7 harg7 hc0 x0 x1 x2 x3 xo4 xo5 = accFold x0 x1 x2 x3 k0_t1_loop.trips xo4 := by
  unfold out0_B_4
  refine (View.read_writes_of_cover _ _ arg6.view (harg6.unread xo4) _ (cover0_B_4 c i arg2 harg2 arg3 harg3 arg4 harg4 arg5 harg5 arg6 harg6 arg7 harg7 hc0 x0 x1 x2 x3 xo4 xo5)).trans ?_
  have h := (loop_fold Variants.none c none i arg2 harg2 arg3 harg3 arg4 harg4 arg5 harg5 arg6 harg6 arg7 harg7 x0 x1 x2 x3 (harg6.unread xo4) (harg7.unread xo5) k0_t1_loop.trips le_rfl).1
  rw [harg6.read_unread] at h
  rw [← h]
  unfold kernelRun0_B
  dsimp only
  rw [loop_read_x0]
  rfl

/-- A point inside a core's run, degree accumulator: the same, from xo5. -/
theorem out0_B_5_eq (c : Dev nD) (i : grid0.Coords) (arg2 : Memref sig .tc .vmem S10000x128 .bf16) (harg2 : arg2.IsWhole) (arg3 : Memref sig .tc .vmem S1x2560x1 .i32) (harg3 : arg3.IsWhole) (arg4 : Memref sig .tc .vmem S1x2560x1 .i32) (harg4 : arg4.IsWhole) (arg5 : Memref sig .tc .vmem S1x2560x1 .f32) (harg5 : arg5.IsWhole) (arg6 : Memref sig .tc .vmem S1x10000x128 .f32) (harg6 : arg6.IsWhole) (arg7 : Memref sig .tc .vmem S1x1x10000 .f32) (harg7 : arg7.IsWhole) (hc0 : ¬cond0_0 i) (x0 : Vec F S10000x128 .bf16) (x1 : Vec F S1x2560x1 .i32) (x2 : Vec F S1x2560x1 .i32) (x3 : Vec F S1x2560x1 .f32) (xo4 : Vec F S1x10000x128 .f32) (xo5 : Vec F S1x1x10000 .f32) :
    out0_B_5 c i arg2 harg2 arg3 harg3 arg4 harg4 arg5 harg5 arg6 harg6 arg7 harg7 hc0 x0 x1 x2 x3 xo4 xo5 = degFold x2 k0_t1_loop.trips xo5 := by
  unfold out0_B_5
  refine (View.read_writes_of_cover _ _ arg7.view (harg7.unread xo5) _ (cover0_B_5 c i arg2 harg2 arg3 harg3 arg4 harg4 arg5 harg5 arg6 harg6 arg7 harg7 hc0 x0 x1 x2 x3 xo4 xo5)).trans ?_
  have h := (loop_fold Variants.none c none i arg2 harg2 arg3 harg3 arg4 harg4 arg5 harg5 arg6 harg6 arg7 harg7 x0 x1 x2 x3 (harg6.unread xo4) (harg7.unread xo5) k0_t1_loop.trips le_rfl).2
  rw [harg7.read_unread] at h
  rw [← h]
  unfold kernelRun0_B
  dsimp only
  rw [loop_read_x0]
  rfl

/-- A core's first point, feature accumulator: the pieces are the ten trips' in front of the zero store's. Writing the
    concatenation is writing the trips' pieces over the zero store's result, which reads as the zero block (one store
    over the whole buffer leaves its payload); so the buffer reads as the ten-fold from the zero block. -/
theorem out0_A_4_eq (c : Dev nD) (i : grid0.Coords) (arg2 : Memref sig .tc .vmem S10000x128 .bf16) (harg2 : arg2.IsWhole) (arg3 : Memref sig .tc .vmem S1x2560x1 .i32) (harg3 : arg3.IsWhole) (arg4 : Memref sig .tc .vmem S1x2560x1 .i32) (harg4 : arg4.IsWhole) (arg5 : Memref sig .tc .vmem S1x2560x1 .f32) (harg5 : arg5.IsWhole) (arg6 : Memref sig .tc .vmem S1x10000x128 .f32) (harg6 : arg6.IsWhole) (arg7 : Memref sig .tc .vmem S1x1x10000 .f32) (harg7 : arg7.IsWhole) (hc0 : cond0_0 i) (x0 : Vec F S10000x128 .bf16) (x1 : Vec F S1x2560x1 .i32) (x2 : Vec F S1x2560x1 .i32) (x3 : Vec F S1x2560x1 .f32) :
    out0_A_4 c i arg2 harg2 arg3 harg3 arg4 harg4 arg5 harg5 arg6 harg6 arg7 harg7 hc0 x0 x1 x2 x3 = accFold x0 x1 x2 x3 k0_t1_loop.trips k0_pay1 := by
  unfold out0_A_4
  refine (View.read_writes_of_cover _ _ arg6.view arg6.view.junk _ (cover0_A_4 c i arg2 harg2 arg3 harg3 arg4 harg4 arg5 harg5 arg6 harg6 arg7 harg7 hc0 x0 x1 x2 x3)).trans ?_
  unfold kernelRun0_A
  dsimp only
  rw [View.writes_append, loop_read_x0]
  refine ((loop_fold Variants.none c none i arg2 harg2 arg3 harg3 arg4 harg4 arg5 harg5 arg6 harg6 arg7 harg7 x0 x1 x2 x3 _ _ k0_t1_loop.trips le_rfl).1).trans ?_
  congr 1
  sl_unfold_words
  rw [View.read_writes_eq_canon _ _ _ (fun y => by refine ⟨_, List.mem_singleton_self _, ?_⟩; exact View.mem_set_unit_zero loop_zeros3 inb_S1x10000x128_S1x10000x128_0_0_0 y), View.canon_unit_zero loop_zeros3]

/-- A core's first point, degree accumulator: the same, from the zero row. -/
theorem out0_A_5_eq (c : Dev nD) (i : grid0.Coords) (arg2 : Memref sig .tc .vmem S10000x128 .bf16) (harg2 : arg2.IsWhole) (arg3 : Memref sig .tc .vmem S1x2560x1 .i32) (harg3 : arg3.IsWhole) (arg4 : Memref sig .tc .vmem S1x2560x1 .i32) (harg4 : arg4.IsWhole) (arg5 : Memref sig .tc .vmem S1x2560x1 .f32) (harg5 : arg5.IsWhole) (arg6 : Memref sig .tc .vmem S1x10000x128 .f32) (harg6 : arg6.IsWhole) (arg7 : Memref sig .tc .vmem S1x1x10000 .f32) (harg7 : arg7.IsWhole) (hc0 : cond0_0 i) (x0 : Vec F S10000x128 .bf16) (x1 : Vec F S1x2560x1 .i32) (x2 : Vec F S1x2560x1 .i32) (x3 : Vec F S1x2560x1 .f32) :
    out0_A_5 c i arg2 harg2 arg3 harg3 arg4 harg4 arg5 harg5 arg6 harg6 arg7 harg7 hc0 x0 x1 x2 x3 = degFold x2 k0_t1_loop.trips k0_pay2 := by
  unfold out0_A_5
  refine (View.read_writes_of_cover _ _ arg7.view arg7.view.junk _ (cover0_A_5 c i arg2 harg2 arg3 harg3 arg4 harg4 arg5 harg5 arg6 harg6 arg7 harg7 hc0 x0 x1 x2 x3)).trans ?_
  unfold kernelRun0_A
  dsimp only
  rw [View.writes_append, loop_read_x0]
  refine ((loop_fold Variants.none c none i arg2 harg2 arg3 harg3 arg4 harg4 arg5 harg5 arg6 harg6 arg7 harg7 x0 x1 x2 x3 _ _ k0_t1_loop.trips le_rfl).2).trans ?_
  congr 1
  sl_unfold_words
  rw [View.read_writes_eq_canon _ _ _ (fun y => by refine ⟨_, List.mem_singleton_self _, ?_⟩; exact View.mem_set_unit_zero loop_zeros3 inb_S1x1x10000_S1x1x10000_0_0_0 y), View.canon_unit_zero loop_zeros3]

end Cert.KernelIdeal.Agg

end
-- ==== Proof.Consts.lean ====
/- The float constants the two programs spell, as the extended reals their patterns denote: one as a 32-bit and as a
   16-bit (bfloat) pattern. Stated once here so that no other module unfolds the decoding of a pattern. -/
import Idealize.ShloMosaic.PureOps.Ideal

noncomputable section

namespace Cert.Consts

open Idealize.ShloMosaic

/-- The 32-bit pattern of one denotes 1. -/
theorem ofBits_f32_one : Ideal.ofBits .f32 0x3F800000#32 = 1 := by
  simp [Ideal.ofBits, Ideal.ieee, -EReal.coe_mul]; norm_num

/-- The bfloat pattern of one denotes 1. -/
theorem ofBits_bf16_one : Ideal.ofBits .bf16 0x3F80#16 = 1 := by
  simp [Ideal.ofBits, Ideal.ieee, -EReal.coe_mul]; norm_num

end Cert.Consts

end
-- ==== Proof.AggStepIdeal.lean ====
/- The ten trips of one grid point read at an entry, over the extended reals: the accumulator's entry plus, over the
   point's 2560 edges, each edge's message (its source's row, picked by an indicator sum over the nodes, times its weight)
   where the edge's destination is the entry's node; and the degree accumulator's entry plus the number of those edges. -/
import proofs.«422423_j81836306858014_3_alg».proof.Proof.AggFold
import proofs.«422423_j81836306858014_3_alg».proof.Proof.MeanAggSpec
import proofs.«422423_j81836306858014_3_alg».proof.Proof.Consts
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Agg

open Cert.KernelIdeal Cert.KernelIdeal.Gen Cert.MeanAgg
open Idealize.ShloMosaic Idealize.ShloMosaic.ValueIdx

/-- Edge e of trip k among a point's 2560 edges. -/
def blkRow (k : Fin 10) (e : Fin 256) : Fin 2560 := ⟨k.val * 256 + e.val, by omega⟩

theorem trips_eq : k0_t1_loop.trips = 10 := by decide

/-- The indicator bit of an equality of words, widened and converted, is 1 or 0. -/
theorem sitofp_eqBit (a b : BitVec 32) :
    FloatOps.sitofp (F := Ideal) .f32 ((IntOp.cmpi .eq a b).setWidth 32) = if a = b then (1 : EReal) else 0 := by
  by_cases h : a = b
  · subst h
    rw [if_pos rfl]
    show (((BitVec.setWidth 32 (BitVec.ofBool (a == a))).toInt : ℝ) : EReal) = 1
    simp
  · rw [if_neg h]
    show (((BitVec.setWidth 32 (BitVec.ofBool (a == b))).toInt : ℝ) : EReal) = 0
    have : (a == b) = false := by simpa using h
    rw [this]
    simp

theorem nodeRow_apply (n : Fin 10000) : nodeRow (ix2 (0 : Fin 1) n) = node n := by
  unfold nodeRow
  exact iota_single_apply .tc S1x10000 32 1 iota_S1x10000_d1_w32 (ix2 (0 : Fin 1) n)

/-- A column of 256 words spread along 10000 columns reads its row's word. -/
theorem colBcast_apply {α : Type} (v : S256x1.Idx → α) (e : Fin 256) (n : Fin 10000) :
    broadcastTo S256x10000 v broadcasts_S256x1_S256x10000 (ix2 e n) = v (ix2 e (0 : Fin 1)) := by
  refine broadcastTo_apply v broadcasts_S256x1_S256x10000 (ix2 e n) (ix2 e (0 : Fin 1)) fun ax => ?_
  match ax with
  | ⟨0, _⟩ => rfl
  | ⟨1, _⟩ => rfl

/-- The same column spread along 128 columns. -/
theorem colBcast128_apply {α : Type} (v : S256x1.Idx → α) (e : Fin 256) (d : Fin 128) :
    broadcastTo S256x128 v broadcasts_S256x1_S256x128 (ix2 e d) = v (ix2 e (0 : Fin 1)) := by
  refine broadcastTo_apply v broadcasts_S256x1_S256x128 (ix2 e d) (ix2 e (0 : Fin 1)) fun ax => ?_
  match ax with
  | ⟨0, _⟩ => rfl
  | ⟨1, _⟩ => rfl

/-- A [1,256,1] block seen as a [256,1] column. -/
theorem colCast_apply {α : Type} (v : S1x256x1.Idx → α) (e : Fin 256) :
    shapeCast S256x1 v shapeCasts_S1x256x1_S256x1 (ix2 e (0 : Fin 1)) = v (ix3 (0 : Fin 1) e (0 : Fin 1)) :=
  shapeCast_1ab_ab_apply v shapeCasts_S1x256x1_S256x1 e (0 : Fin 1)

/-- The destination (or source) one-hot: 1 where the edge's word is the column's node id. -/
theorem oneHot_apply (v3 : IVec S1x10000 32) (v16 : IVec S1x256x1 32) (e : Fin 256) (n : Fin 10000) :
    k0_pay6 (F := Ideal) v3 v16 (ix2 e n)
      = if v16 (ix3 (0 : Fin 1) e (0 : Fin 1)) = v3 (ix2 (0 : Fin 1) n) then (1 : EReal) else 0 := by
  unfold k0_pay6
  rw [truncf_apply, sitofp_apply, extui_apply]
  show FloatOps.sitofp (F := Ideal) .f32 ((IntOp.cmpi .eq
      (broadcastTo S256x10000 (shapeCast S256x1 v16 shapeCasts_S1x256x1_S256x1) broadcasts_S256x1_S256x10000 (ix2 e n))
      (broadcastTo S256x10000 v3 broadcasts_S1x10000_S256x10000 (ix2 e n))).setWidth 32) = _
  rw [colBcast_apply, colCast_apply, broadcastTo_1b_ab_apply, sitofp_eqBit]

/-! The three contractions, each read at an entry as a sum over its one contracted axis. -/

theorem lhs_A_0 (i : S256x128.Idx) (q : dot_S256x10000_S10000x128_S256x128_1_0_0_1_n_n.contr.Idx) :
    (dot_S256x10000_S10000x128_S256x128_1_0_0_1_n_n.lhsIdx i q 0).val = (i 0).val := by
  unfold DotDims.lhsIdx
  rw [dif_neg (show ¬(0 : Fin S256x10000.rank) ∈ dot_S256x10000_S10000x128_S256x128_1_0_0_1_n_n.lhsBatch by decide), dif_pos (show (0 : Fin S256x10000.rank) ∈ dot_S256x10000_S10000x128_S256x128_1_0_0_1_n_n.lhsNonContracting by decide)]
  rfl
theorem lhs_A_1 (i : S256x128.Idx) (q : dot_S256x10000_S10000x128_S256x128_1_0_0_1_n_n.contr.Idx) :
    (dot_S256x10000_S10000x128_S256x128_1_0_0_1_n_n.lhsIdx i q 1).val = (q ⟨0, by decide⟩).val :=
  dot_S256x10000_S10000x128_S256x128_1_0_0_1_n_n.lhsIdx_val_of_single rfl i q
theorem rhs_A_0 (i : S256x128.Idx) (q : dot_S256x10000_S10000x128_S256x128_1_0_0_1_n_n.contr.Idx) :
    (dot_S256x10000_S10000x128_S256x128_1_0_0_1_n_n.rhsIdx i q 0).val = (q ⟨0, by decide⟩).val :=
  dot_S256x10000_S10000x128_S256x128_1_0_0_1_n_n.rhsIdx_val_of_single rfl i q
theorem rhs_A_1 (i : S256x128.Idx) (q : dot_S256x10000_S10000x128_S256x128_1_0_0_1_n_n.contr.Idx) :
    (dot_S256x10000_S10000x128_S256x128_1_0_0_1_n_n.rhsIdx i q 1).val = (i 1).val := by
  unfold DotDims.rhsIdx
  rw [dif_neg (show ¬(1 : Fin S10000x128.rank) ∈ dot_S256x10000_S10000x128_S256x128_1_0_0_1_n_n.rhsBatch by decide), dif_pos (show (1 : Fin S10000x128.rank) ∈ dot_S256x10000_S10000x128_S256x128_1_0_0_1_n_n.rhsNonContracting by decide)]
  rfl

/-- Rows of L against columns of R, over the 10000 nodes. -/
theorem dotA_apply (L : FVec Ideal S256x10000 .bf16) (R : FVec Ideal S10000x128 .bf16) (e : Fin 256) (d : Fin 128) :
    FloatOps.matmul (F := Ideal) dot_S256x10000_S10000x128_S256x128_1_0_0_1_n_n none L R (constant (F := Ideal) S256x128 .f32 0x00000000#32) (ix2 e d)
      = ∑ n' : Fin 10000, L (ix2 e n') * R (ix2 n' d) := by
  rw [Ideal.matmul_constant_zero_apply, ← Equiv.sum_comp (ValueIdx.contrEquiv1 dot_S256x10000_S10000x128_S256x128_1_0_0_1_n_n 10000 rfl rfl).symm]
  refine Finset.sum_congr rfl fun k _ => ?_
  have hk := ValueIdx.contrEquiv1_symm_val dot_S256x10000_S10000x128_S256x128_1_0_0_1_n_n 10000 rfl rfl k
  have el : dot_S256x10000_S10000x128_S256x128_1_0_0_1_n_n.lhsIdx (ix2 e d) ((ValueIdx.contrEquiv1 dot_S256x10000_S10000x128_S256x128_1_0_0_1_n_n 10000 rfl rfl).symm k) = ix2 e k := funext fun a => Fin.ext (by
    match a with
    | ⟨0, _⟩ => exact lhs_A_0 _ _
    | ⟨1, _⟩ => exact (lhs_A_1 _ _).trans hk)
  have er : dot_S256x10000_S10000x128_S256x128_1_0_0_1_n_n.rhsIdx (ix2 e d) ((ValueIdx.contrEquiv1 dot_S256x10000_S10000x128_S256x128_1_0_0_1_n_n 10000 rfl rfl).symm k) = ix2 k d := funext fun a => Fin.ext (by
    match a with
    | ⟨0, _⟩ => exact (rhs_A_0 _ _).trans hk
    | ⟨1, _⟩ => exact rhs_A_1 _ _)
  rw [el, er]

theorem lhs_B_0 (i : S10000x128.Idx) (q : dot_S256x10000_S256x128_S10000x128_0_0_1_1_n_n.contr.Idx) :
    (dot_S256x10000_S256x128_S10000x128_0_0_1_1_n_n.lhsIdx i q 0).val = (q ⟨0, by decide⟩).val :=
  dot_S256x10000_S256x128_S10000x128_0_0_1_1_n_n.lhsIdx_val_of_single rfl i q
theorem lhs_B_1 (i : S10000x128.Idx) (q : dot_S256x10000_S256x128_S10000x128_0_0_1_1_n_n.contr.Idx) :
    (dot_S256x10000_S256x128_S10000x128_0_0_1_1_n_n.lhsIdx i q 1).val = (i 0).val := by
  unfold DotDims.lhsIdx
  rw [dif_neg (show ¬(1 : Fin S256x10000.rank) ∈ dot_S256x10000_S256x128_S10000x128_0_0_1_1_n_n.lhsBatch by decide), dif_pos (show (1 : Fin S256x10000.rank) ∈ dot_S256x10000_S256x128_S10000x128_0_0_1_1_n_n.lhsNonContracting by decide)]
  rfl
theorem rhs_B_0 (i : S10000x128.Idx) (q : dot_S256x10000_S256x128_S10000x128_0_0_1_1_n_n.contr.Idx) :
    (dot_S256x10000_S256x128_S10000x128_0_0_1_1_n_n.rhsIdx i q 0).val = (q ⟨0, by decide⟩).val :=
  dot_S256x10000_S256x128_S10000x128_0_0_1_1_n_n.rhsIdx_val_of_single rfl i q
theorem rhs_B_1 (i : S10000x128.Idx) (q : dot_S256x10000_S256x128_S10000x128_0_0_1_1_n_n.contr.Idx) :
    (dot_S256x10000_S256x128_S10000x128_0_0_1_1_n_n.rhsIdx i q 1).val = (i 1).val := by
  unfold DotDims.rhsIdx
  rw [dif_neg (show ¬(1 : Fin S256x128.rank) ∈ dot_S256x10000_S256x128_S10000x128_0_0_1_1_n_n.rhsBatch by decide), dif_pos (show (1 : Fin S256x128.rank) ∈ dot_S256x10000_S256x128_S10000x128_0_0_1_1_n_n.rhsNonContracting by decide)]
  rfl

/-- Columns of L against columns of R, over the 256 edges of a trip. -/
theorem dotB_apply (L : FVec Ideal S256x10000 .bf16) (R : FVec Ideal S256x128 .bf16) (n : Fin 10000) (d : Fin 128) :
    FloatOps.matmul (F := Ideal) dot_S256x10000_S256x128_S10000x128_0_0_1_1_n_n none L R (constant (F := Ideal) S10000x128 .f32 0x00000000#32) (ix2 n d)
      = ∑ e : Fin 256, L (ix2 e n) * R (ix2 e d) := by
  rw [Ideal.matmul_constant_zero_apply, ← Equiv.sum_comp (ValueIdx.contrEquiv1 dot_S256x10000_S256x128_S10000x128_0_0_1_1_n_n 256 rfl rfl).symm]
  refine Finset.sum_congr rfl fun k _ => ?_
  have hk := ValueIdx.contrEquiv1_symm_val dot_S256x10000_S256x128_S10000x128_0_0_1_1_n_n 256 rfl rfl k
  have el : dot_S256x10000_S256x128_S10000x128_0_0_1_1_n_n.lhsIdx (ix2 n d) ((ValueIdx.contrEquiv1 dot_S256x10000_S256x128_S10000x128_0_0_1_1_n_n 256 rfl rfl).symm k) = ix2 k n := funext fun a => Fin.ext (by
    match a with
    | ⟨0, _⟩ => exact (lhs_B_0 _ _).trans hk
    | ⟨1, _⟩ => exact lhs_B_1 _ _)
  have er : dot_S256x10000_S256x128_S10000x128_0_0_1_1_n_n.rhsIdx (ix2 n d) ((ValueIdx.contrEquiv1 dot_S256x10000_S256x128_S10000x128_0_0_1_1_n_n 256 rfl rfl).symm k) = ix2 k d := funext fun a => Fin.ext (by
    match a with
    | ⟨0, _⟩ => exact (rhs_B_0 _ _).trans hk
    | ⟨1, _⟩ => exact rhs_B_1 _ _)
  rw [el, er]

theorem lhs_C_0 (i : S1x10000.Idx) (q : dot_S1x256_S256x10000_S1x10000_1_0_0_1_n_n.contr.Idx) :
    (dot_S1x256_S256x10000_S1x10000_1_0_0_1_n_n.lhsIdx i q 0).val = (i 0).val := by
  unfold DotDims.lhsIdx
  rw [dif_neg (show ¬(0 : Fin S1x256.rank) ∈ dot_S1x256_S256x10000_S1x10000_1_0_0_1_n_n.lhsBatch by decide), dif_pos (show (0 : Fin S1x256.rank) ∈ dot_S1x256_S256x10000_S1x10000_1_0_0_1_n_n.lhsNonContracting by decide)]
  rfl
theorem lhs_C_1 (i : S1x10000.Idx) (q : dot_S1x256_S256x10000_S1x10000_1_0_0_1_n_n.contr.Idx) :
    (dot_S1x256_S256x10000_S1x10000_1_0_0_1_n_n.lhsIdx i q 1).val = (q ⟨0, by decide⟩).val :=
  dot_S1x256_S256x10000_S1x10000_1_0_0_1_n_n.lhsIdx_val_of_single rfl i q
theorem rhs_C_0 (i : S1x10000.Idx) (q : dot_S1x256_S256x10000_S1x10000_1_0_0_1_n_n.contr.Idx) :
    (dot_S1x256_S256x10000_S1x10000_1_0_0_1_n_n.rhsIdx i q 0).val = (q ⟨0, by decide⟩).val :=
  dot_S1x256_S256x10000_S1x10000_1_0_0_1_n_n.rhsIdx_val_of_single rfl i q
theorem rhs_C_1 (i : S1x10000.Idx) (q : dot_S1x256_S256x10000_S1x10000_1_0_0_1_n_n.contr.Idx) :
    (dot_S1x256_S256x10000_S1x10000_1_0_0_1_n_n.rhsIdx i q 1).val = (i 1).val := by
  unfold DotDims.rhsIdx
  rw [dif_neg (show ¬(1 : Fin S256x10000.rank) ∈ dot_S1x256_S256x10000_S1x10000_1_0_0_1_n_n.rhsBatch by decide), dif_pos (show (1 : Fin S256x10000.rank) ∈ dot_S1x256_S256x10000_S1x10000_1_0_0_1_n_n.rhsNonContracting by decide)]
  rfl

/-- One row L against the columns of R, over the 256 edges of a trip. -/
theorem dotC_apply (L : FVec Ideal S1x256 .bf16) (R : FVec Ideal S256x10000 .bf16) (n : Fin 10000) :
    FloatOps.matmul (F := Ideal) dot_S1x256_S256x10000_S1x10000_1_0_0_1_n_n none L R (constant (F := Ideal) S1x10000 .f32 0x00000000#32) (ix2 (0 : Fin 1) n)
      = ∑ e : Fin 256, L (ix2 (0 : Fin 1) e) * R (ix2 e n) := by
  rw [Ideal.matmul_constant_zero_apply, ← Equiv.sum_comp (ValueIdx.contrEquiv1 dot_S1x256_S256x10000_S1x10000_1_0_0_1_n_n 256 rfl rfl).symm]
  refine Finset.sum_congr rfl fun k _ => ?_
  have hk := ValueIdx.contrEquiv1_symm_val dot_S1x256_S256x10000_S1x10000_1_0_0_1_n_n 256 rfl rfl k
  have el : dot_S1x256_S256x10000_S1x10000_1_0_0_1_n_n.lhsIdx (ix2 (0 : Fin 1) n) ((ValueIdx.contrEquiv1 dot_S1x256_S256x10000_S1x10000_1_0_0_1_n_n 256 rfl rfl).symm k) = ix2 (0 : Fin 1) k := funext fun a => Fin.ext (by
    match a with
    | ⟨0, _⟩ => exact lhs_C_0 _ _
    | ⟨1, _⟩ => exact (lhs_C_1 _ _).trans hk)
  have er : dot_S1x256_S256x10000_S1x10000_1_0_0_1_n_n.rhsIdx (ix2 (0 : Fin 1) n) ((ValueIdx.contrEquiv1 dot_S1x256_S256x10000_S1x10000_1_0_0_1_n_n 256 rfl rfl).symm k) = ix2 k n := funext fun a => Fin.ext (by
    match a with
    | ⟨0, _⟩ => exact (rhs_C_0 _ _).trans hk
    | ⟨1, _⟩ => exact rhs_C_1 _ _)
  rw [el, er]

/-! The payloads read at an entry. -/

/-- A trip's messages at edge e and feature d: a row of a matrix Q against the features, times the edge's weight. -/
theorem msgPay_apply (Q : FVec Ideal S256x10000 .bf16) (v5 : FVec Ideal S10000x128 .bf16) (v19 : FVec Ideal S1x256x1 .f32)
    (e : Fin 256) (d : Fin 128) :
    (truncf .bf16 (mulf (FloatOps.matmul (F := Ideal) dot_S256x10000_S10000x128_S256x128_1_0_0_1_n_n none Q v5 (constant (F := Ideal) S256x128 .f32 0x00000000#32))
        (broadcastTo S256x128 (shapeCast S256x1 v19 shapeCasts_S1x256x1_S256x1) broadcasts_S256x1_S256x128)) bitsLt_bf16_f32
      : FVec Ideal S256x128 .bf16) (ix2 e d)
      = (∑ n' : Fin 10000, Q (ix2 e n') * v5 (ix2 n' d)) * v19 (ix3 (0 : Fin 1) e (0 : Fin 1)) := by
  rw [truncf_apply, mulf_apply, dotA_apply, colBcast128_apply, colCast_apply]

/-- The accumulator's new entry: the old one plus a column of P against a column of M. -/
theorem accPay_apply (P : FVec Ideal S256x10000 .bf16) (M : FVec Ideal S256x128 .bf16) (v39 : FVec Ideal S1x10000x128 .f32)
    (n : Fin 10000) (d : Fin 128) :
    shapeCast S1x10000x128 (addf (shapeCast S10000x128 v39 shapeCasts_S1x10000x128_S10000x128)
        (FloatOps.matmul (F := Ideal) dot_S256x10000_S256x128_S10000x128_0_0_1_1_n_n none P M (constant (F := Ideal) S10000x128 .f32 0x00000000#32)))
      shapeCasts_S10000x128_S1x10000x128 (ix3 (0 : Fin 1) n d)
      = v39 (ix3 (0 : Fin 1) n d) + ∑ e : Fin 256, P (ix2 e n) * M (ix2 e d) := by
  rw [shapeCast_ab_1ab_apply, addf_apply, shapeCast_1ab_ab_apply, dotB_apply]

theorem pay8_eq (v3 : IVec S1x10000 32) (v5 : FVec Ideal S10000x128 .bf16) (v13 v16 : IVec S1x256x1 32)
    (v19 : FVec Ideal S1x256x1 .f32) (v39 : FVec Ideal S1x10000x128 .f32) :
    k0_pay8 (F := Ideal) v3 v5 v13 v16 v19 v39
      = shapeCast S1x10000x128 (addf (shapeCast S10000x128 v39 shapeCasts_S1x10000x128_S10000x128)
        (FloatOps.matmul (F := Ideal) dot_S256x10000_S256x128_S10000x128_0_0_1_1_n_n none (k0_pay6 (F := Ideal) v3 v16)
          (truncf .bf16 (mulf (FloatOps.matmul (F := Ideal) dot_S256x10000_S10000x128_S256x128_1_0_0_1_n_n none (k0_pay6 (F := Ideal) v3 v13) v5 (constant (F := Ideal) S256x128 .f32 0x00000000#32))
            (broadcastTo S256x128 (shapeCast S256x1 v19 shapeCasts_S1x256x1_S256x1) broadcasts_S256x1_S256x128)) bitsLt_bf16_f32
            : FVec Ideal S256x128 .bf16)
          (constant (F := Ideal) S10000x128 .f32 0x00000000#32)))
      shapeCasts_S10000x128_S1x10000x128 := rfl

/-- The feature step at an entry. -/
theorem pay8_apply (v3 : IVec S1x10000 32) (v5 : FVec Ideal S10000x128 .bf16) (v13 v16 : IVec S1x256x1 32)
    (v19 : FVec Ideal S1x256x1 .f32) (v39 : FVec Ideal S1x10000x128 .f32) (n : Fin 10000) (d : Fin 128) :
    k0_pay8 (F := Ideal) v3 v5 v13 v16 v19 v39 (ix3 (0 : Fin 1) n d)
      = v39 (ix3 (0 : Fin 1) n d) + ∑ e : Fin 256,
          (if v16 (ix3 (0 : Fin 1) e (0 : Fin 1)) = v3 (ix2 (0 : Fin 1) n) then
            (∑ n' : Fin 10000, if v13 (ix3 (0 : Fin 1) e (0 : Fin 1)) = v3 (ix2 (0 : Fin 1) n') then v5 (ix2 n' d) else 0)
              * v19 (ix3 (0 : Fin 1) e (0 : Fin 1))
           else 0) := by
  rw [pay8_eq, accPay_apply]
  refine congrArg (v39 (ix3 (0 : Fin 1) n d) + ·) (Finset.sum_congr rfl fun e _ => ?_)
  rw [msgPay_apply, oneHot_apply, ite_mul, one_mul, zero_mul]
  refine if_congr Iff.rfl ?_ rfl
  refine congrArg (· * v19 (ix3 (0 : Fin 1) e (0 : Fin 1))) (Finset.sum_congr rfl fun n' _ => ?_)
  rw [oneHot_apply, ite_mul, one_mul, zero_mul]

/-! A trip's 256 rows among the block's 2560. -/

/-- Row e of trip k's window is row k·256 + e of the block. -/
theorem tripRect_idx (k : Fin k0_t1_loop.trips) (hk : k.val < 10) (e : Fin 256) :
    (tripRect k).toLoadRect.idx (ix3 (0 : Fin 1) e (0 : Fin 1)) = ix3 (0 : Fin 1) (blkRow ⟨k.val, hk⟩ e) (0 : Fin 1) := by
  funext a
  apply Fin.ext
  have ho := k0_off1_eq k
  match a with
  | ⟨0, _⟩ =>
    show (k0_off1 k) 0 + 1 * 0 = 0
    rw [ho]; rfl
  | ⟨1, _⟩ =>
    show (k0_off1 k) 1 + 1 * e.val = k.val * 256 + e.val
    rw [ho]
    show 256 * k.val + 1 * e.val = k.val * 256 + e.val
    omega
  | ⟨2, _⟩ =>
    show (k0_off1 k) 2 + 1 * 0 = 0
    rw [ho]; rfl

/-- What trip k adds to node n's row at feature d. -/
def tripAcc (x0 : FVec Ideal S10000x128 .bf16) (x1 x2 : IVec S1x2560x1 32) (x3 : FVec Ideal S1x2560x1 .f32)
    (n : Fin 10000) (d : Fin 128) (k : Fin 10) : EReal :=
  ∑ e : Fin 256,
    (if x2 (ix3 0 (blkRow k e) 0) = node n then
      (∑ n' : Fin 10000, if x1 (ix3 0 (blkRow k e) 0) = node n' then x0 (ix2 n' d) else 0) * x3 (ix3 0 (blkRow k e) 0)
     else 0)

/-- What trip k adds to node n's degree. -/
def tripDeg (x2 : IVec S1x2560x1 32) (n : Fin 10000) (k : Fin 10) : EReal :=
  ∑ e : Fin 256, (if x2 (ix3 0 (blkRow k e) 0) = node n then (1 : EReal) else 0)

/-- One trip on the feature accumulator, at an entry. -/
theorem accStep_apply (x0 : FVec Ideal S10000x128 .bf16) (x1 x2 : IVec S1x2560x1 32) (x3 : FVec Ideal S1x2560x1 .f32)
    (k : Fin k0_t1_loop.trips) (hk : k.val < 10) (a : FVec Ideal S1x10000x128 .f32) (n : Fin 10000) (d : Fin 128) :
    accStep (F := Ideal) x0 x1 x2 x3 k a (ix3 0 n d) = a (ix3 0 n d) + tripAcc x0 x1 x2 x3 n d ⟨k.val, hk⟩ := by
  unfold accStep tripAcc
  refine (pay8_apply nodeRow (k0_pay3 (F := Ideal) x0) _ _ _ a n d).trans ?_
  refine congrArg (a (ix3 0 n d) + ·) (Finset.sum_congr rfl fun e _ => ?_)
  have hi := tripRect_idx k hk e
  have h3 : k0_pay3 (F := Ideal) x0 = x0 := shapeCast_self x0 _
  show (if x2 ((tripRect k).toLoadRect.idx (ix3 (0 : Fin 1) e (0 : Fin 1))) = nodeRow (ix2 (0 : Fin 1) n) then
      (∑ n' : Fin 10000, if x1 ((tripRect k).toLoadRect.idx (ix3 (0 : Fin 1) e (0 : Fin 1))) = nodeRow (ix2 (0 : Fin 1) n')
        then k0_pay3 (F := Ideal) x0 (ix2 n' d) else 0) * x3 ((tripRect k).toLoadRect.idx (ix3 (0 : Fin 1) e (0 : Fin 1)))
      else 0) = _
  rw [hi, h3]
  simp only [nodeRow_apply]

theorem accFold_range (x0 : FVec Ideal S10000x128 .bf16) (x1 x2 : IVec S1x2560x1 32) (x3 : FVec Ideal S1x2560x1 .f32)
    (a : FVec Ideal S1x10000x128 .f32) (n : Fin 10000) (d : Fin 128) :
    ∀ K : ℕ, K ≤ 10 → accFold (F := Ideal) x0 x1 x2 x3 K a (ix3 0 n d)
      = a (ix3 0 n d) + ∑ k ∈ Finset.range K, (if hk : k < 10 then tripAcc x0 x1 x2 x3 n d ⟨k, hk⟩ else 0)
  | 0, _ => by
    rw [Finset.sum_range_zero, add_zero]; rfl
  | K + 1, hK => by
    have hlt : K < k0_t1_loop.trips := by rw [trips_eq]; omega
    have h10 : K < 10 := by omega
    rw [accFold, dif_pos hlt, accStep_apply x0 x1 x2 x3 ⟨K, hlt⟩ h10, accFold_range x0 x1 x2 x3 a n d K (by omega),
      Finset.sum_range_succ, dif_pos h10, add_assoc]

/-- The degree step's row of ones. -/
theorem pay4_apply (e : Fin 256) : k0_pay4 (F := Ideal) (ix2 (0 : Fin 1) e) = 1 :=
  Cert.Consts.ofBits_bf16_one

/-- A trip's degree counts: the row of ones against the destination one-hot. -/
theorem pay7_apply (v3 : IVec S1x10000 32) (v6 : FVec Ideal S1x256 .bf16) (v16 : IVec S1x256x1 32) (n : Fin 10000) :
    k0_pay7 (F := Ideal) v3 v6 v16 (ix2 (0 : Fin 1) n)
      = ∑ e : Fin 256, v6 (ix2 (0 : Fin 1) e) * k0_pay6 (F := Ideal) v3 v16 (ix2 e n) := by
  unfold k0_pay7
  exact dotC_apply v6 (k0_pay6 (F := Ideal) v3 v16) n

/-- The degree accumulator's new entry: the old one plus the trip's count. -/
theorem pay5_apply (v38 : FVec Ideal S1x10000 .f32) (v45 : FVec Ideal S1x1x10000 .f32) (n : Fin 10000) :
    k0_pay5 (F := Ideal) v38 v45 (ix3 (0 : Fin 1) (0 : Fin 1) n) = v45 (ix3 (0 : Fin 1) (0 : Fin 1) n) + v38 (ix2 (0 : Fin 1) n) := by
  unfold k0_pay5
  rw [shapeCast_ab_1ab_apply, addf_apply, shapeCast_1ab_ab_apply]

/-- One trip on the degree accumulator, at an entry. -/
theorem degStep_apply (x2 : IVec S1x2560x1 32) (k : Fin k0_t1_loop.trips) (hk : k.val < 10) (g : FVec Ideal S1x1x10000 .f32)
    (n : Fin 10000) :
    degStep (F := Ideal) x2 k g (ix3 0 0 n) = g (ix3 0 0 n) + tripDeg x2 n ⟨k.val, hk⟩ := by
  unfold degStep tripDeg
  rw [pay5_apply, pay7_apply]
  refine congrArg (g (ix3 0 0 n) + ·) (Finset.sum_congr rfl fun e _ => ?_)
  rw [pay4_apply, one_mul, oneHot_apply]
  have hi := tripRect_idx k hk e
  show (if x2 ((tripRect k).toLoadRect.idx (ix3 (0 : Fin 1) e (0 : Fin 1))) = nodeRow (ix2 (0 : Fin 1) n) then (1 : EReal) else 0) = _
  rw [hi, nodeRow_apply]

theorem degFold_range (x2 : IVec S1x2560x1 32) (g : FVec Ideal S1x1x10000 .f32) (n : Fin 10000) :
    ∀ K : ℕ, K ≤ 10 → degFold (F := Ideal) x2 K g (ix3 0 0 n)
      = g (ix3 0 0 n) + ∑ k ∈ Finset.range K, (if hk : k < 10 then tripDeg x2 n ⟨k, hk⟩ else 0)
  | 0, _ => by
    rw [Finset.sum_range_zero, add_zero]; rfl
  | K + 1, hK => by
    have hlt : K < k0_t1_loop.trips := by rw [trips_eq]; omega
    have h10 : K < 10 := by omega
    rw [degFold, dif_pos hlt, degStep_apply x2 ⟨K, hlt⟩ h10, degFold_range x2 g n K (by omega),
      Finset.sum_range_succ, dif_pos h10, add_assoc]

theorem accFold_apply (x0 : FVec Ideal S10000x128 .bf16) (x1 x2 : IVec S1x2560x1 32) (x3 : FVec Ideal S1x2560x1 .f32)
    (a : FVec Ideal S1x10000x128 .f32) (n : Fin 10000) (d : Fin 128) :
    accFold (F := Ideal) x0 x1 x2 x3 k0_t1_loop.trips a (ix3 0 n d)
      = a (ix3 0 n d) + ∑ k : Fin 10, ∑ e : Fin 256,
          (if x2 (ix3 0 (blkRow k e) 0) = node n then
            (∑ n' : Fin 10000, if x1 (ix3 0 (blkRow k e) 0) = node n' then x0 (ix2 n' d) else 0) * x3 (ix3 0 (blkRow k e) 0)
           else 0) := by
  rw [trips_eq, accFold_range x0 x1 x2 x3 a n d 10 le_rfl, Finset.sum_range]
  refine congrArg (a (ix3 0 n d) + ·) (Finset.sum_congr rfl fun k _ => ?_)
  rw [dif_pos k.isLt]
  rfl

theorem degFold_apply (x2 : IVec S1x2560x1 32) (g : FVec Ideal S1x1x10000 .f32) (n : Fin 10000) :
    degFold (F := Ideal) x2 k0_t1_loop.trips g (ix3 0 0 n)
      = g (ix3 0 0 n) + ∑ k : Fin 10, ∑ e : Fin 256, (if x2 (ix3 0 (blkRow k e) 0) = node n then (1 : EReal) else 0) := by
  rw [trips_eq, degFold_range x2 g n 10 le_rfl, Finset.sum_range]
  refine congrArg (g (ix3 0 0 n) + ·) (Finset.sum_congr rfl fun k _ => ?_)
  rw [dif_pos k.isLt]
  rfl

theorem zeroAcc_apply (j : S1x10000x128.Idx) : k0_pay1 (F := Ideal) j = 0 := by
  exact Ideal.ofBits_zero_f32

theorem zeroDeg_apply (j : S1x1x10000.Idx) : k0_pay2 (F := Ideal) j = 0 := by
  exact Ideal.ofBits_zero_f32

end Cert.KernelIdeal.Agg

end
-- ==== Proof.SumLaws.lean ====
/- Laws of finite sums over the extended reals (a commutative monoid under +; no finiteness is needed) that join the
   blocked accumulation to the plain sums: ten more blocks extend a prefix sum by their ten contributions; the two
   halves' 1250 blocks of 256 edges are all 640000 edges, once each; a sum over 256 rows is the sum over the upper 128
   plus the sum over the lower 128. -/
import proofs.«422423_j81836306858014_3_alg».proof.Proof.MeanAggSpec
import Mathlib.Algebra.BigOperators.Fin
import Mathlib.Algebra.BigOperators.Intervals

noncomputable section

namespace Cert.MeanAgg

/-- A prefix sum over ten more indices is the shorter prefix sum plus the ten new terms. -/
theorem sum_range_ten {M : Type*} [AddCommMonoid M] (g : ℕ → M) (i : ℕ) :
    ∑ j ∈ Finset.range ((i + 1) * 10), g j
      = ∑ j ∈ Finset.range (i * 10), g j + ∑ k : Fin 10, g (i * 10 + k.val) := by
  have h : (i + 1) * 10 = i * 10 + 10 := by ring
  rw [h, Finset.sum_range_add, Fin.sum_univ_eq_sum_range (fun k => g (i * 10 + k)) 10]

/-- Position b of block a, among m blocks of n, lies below m * n. -/
theorem block_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right _ a.isLt

/-- Summing block by block, and within each block position by position, visits each of the m * n indices once:
    (a, b) ↦ a * n + b is a bijection from pairs onto the indices. -/
theorem sum_fin_blocks {M : Type*} [AddCommMonoid M] (m n N : ℕ) (hN : m * n = N) (g : Fin N → M) :
    ∑ a : Fin m, ∑ b : Fin n, g ⟨a.val * n + b.val, hN ▸ block_lt a b⟩ = ∑ x : Fin N, g x := by
  subst hN
  rw [← Equiv.sum_comp finProdFinEquiv g, Fintype.sum_prod_type]
  refine Finset.sum_congr rfl (fun a _ => Finset.sum_congr rfl (fun b _ => ?_))
  congr 1
  apply Fin.ext
  simp only [finProdFinEquiv_apply_val]
  rw [Nat.mul_comm, Nat.add_comm]

variable (hF : Fin 10000 → Fin 128 → EReal) (srcC dstC : Fin 2 → Fin 320000 → BitVec 32) (wC : Fin 2 → Fin 320000 → EReal)

theorem accC_block (c : Fin 2) (i : ℕ) (hi : i < 125) (n : Fin 10000) (d : Fin 128) :
    accC hF srcC dstC wC c ((i + 1) * 10) n d
      = accC hF srcC dstC wC c (i * 10) n d + ∑ k : Fin 10, contribC hF srcC dstC wC c ⟨i * 10 + k.val, by omega⟩ n d := by
  unfold accC
  rw [sum_range_ten]
  congr 1
  refine Finset.sum_congr rfl (fun k _ => ?_)
  rw [dif_pos]

theorem degC_block (c : Fin 2) (i : ℕ) (hi : i < 125) (n : Fin 10000) :
    degC dstC c ((i + 1) * 10) n
      = degC dstC c (i * 10) n + ∑ k : Fin 10, degContribC dstC c ⟨i * 10 + k.val, by omega⟩ n := by
  unfold degC
  rw [sum_range_ten]
  congr 1
  refine Finset.sum_congr rfl (fun k _ => ?_)
  rw [dif_pos]

/-- All 1250 blocks of a half: every index of the range is a block, so the guard falls away. -/
theorem accC_full (c : Fin 2) (n : Fin 10000) (d : Fin 128) :
    accC hF srcC dstC wC c 1250 n d = ∑ j : Fin 1250, contribC hF srcC dstC wC c j n d := by
  unfold accC
  rw [← Fin.sum_univ_eq_sum_range
    (fun j => if hj : j < 1250 then contribC hF srcC dstC wC c ⟨j, hj⟩ n d else 0) 1250]
  refine Finset.sum_congr rfl (fun j _ => ?_)
  rw [dif_pos j.isLt]

theorem degC_full (c : Fin 2) (n : Fin 10000) :
    degC dstC c 1250 n = ∑ j : Fin 1250, degContribC dstC c j n := by
  unfold degC
  rw [← Fin.sum_univ_eq_sum_range
    (fun j => if hj : j < 1250 then degContribC dstC c ⟨j, hj⟩ n else 0) 1250]
  refine Finset.sum_congr rfl (fun j _ => ?_)
  rw [dif_pos j.isLt]

/-- Two halves of 1250 blocks of 256 positions are the 640000 indices, each once. -/
theorem sum_halves_blocks {M : Type*} [AddCommMonoid M] (G : Fin 640000 → M) :
    (∑ j : Fin 1250, ∑ e : Fin 256, G (flat 0 (row j e))) + (∑ j : Fin 1250, ∑ e : Fin 256, G (flat 1 (row j e)))
      = ∑ x : Fin 640000, G x := by
  have hrow : ∀ c : Fin 2, ∑ j : Fin 1250, ∑ e : Fin 256, G (flat c (row j e)) = ∑ r : Fin 320000, G (flat c r) :=
    fun c => sum_fin_blocks 1250 256 320000 (by norm_num) (fun r => G (flat c r))
  rw [hrow 0, hrow 1, ← Fin.sum_univ_two (fun c : Fin 2 => ∑ r : Fin 320000, G (flat c r))]
  exact sum_fin_blocks 2 320000 640000 (by norm_num) G

variable (srcF dstF : Fin 640000 → BitVec 32) (wF : Fin 640000 → EReal)

theorem acc_halves (hs : ∀ c r, srcC c r = srcF (flat c r)) (hd : ∀ c r, dstC c r = dstF (flat c r))
    (hw : ∀ c r, wC c r = wF (flat c r)) (n : Fin 10000) (d : Fin 128) :
    accC hF srcC dstC wC 0 1250 n d + accC hF srcC dstC wC 1 1250 n d = hsumF hF srcF dstF wF n d := by
  have hterm : ∀ (c : Fin 2) (r : Fin 320000),
      (if dstC c r = node n then msgC hF srcC wC c r d else 0)
        = (fun x : Fin 640000 => if dstF x = node n then msgF hF srcF wF x d else 0) (flat c r) := by
    intro c r
    simp only [msgC, msgF, hs, hd, hw]
  rw [accC_full, accC_full]
  unfold contribC hsumF
  simp only [hterm]
  exact sum_halves_blocks (fun x : Fin 640000 => if dstF x = node n then msgF hF srcF wF x d else 0)

theorem deg_halves (hd : ∀ c r, dstC c r = dstF (flat c r)) (n : Fin 10000) :
    degC dstC 0 1250 n + degC dstC 1 1250 n = degF dstF n := by
  have hterm : ∀ (c : Fin 2) (r : Fin 320000),
      (if dstC c r = node n then (1 : EReal) else 0)
        = (fun x : Fin 640000 => if dstF x = node n then (1 : EReal) else 0) (flat c r) := by
    intro c r
    simp only [hd]
  rw [degC_full, degC_full]
  unfold degContribC degF
  simp only [hterm]
  exact sum_halves_blocks (fun x : Fin 640000 => if dstF x = node n then (1 : EReal) else 0)

theorem sum_256_split (f : Fin 256 → EReal) :
    ∑ k : Fin 256, f k = (∑ k : Fin 128, f (lo k)) + ∑ k : Fin 128, f (hi k) := by
  exact Fin.sum_univ_add (a := 128) (b := 128) f

end Cert.MeanAgg

end
-- ==== Proof.AggGrid.lean ====
/- The aggregation region's two result arrays. The grid is 2 halves × 125 steps; half c's accumulators are reset at its
   first step, carried across its 125 steps (ten blocks of 256 edges each), and written back once, after its last step,
   to slab c of the result. So slab c ends holding the sum of all 1250 blocks of half c: by induction on the grid
   point, never by enumerating the grid. -/
import proofs.«422423_j81836306858014_3_alg».proof.Proof.Gen.KernelIdeal.Frame
import proofs.«422423_j81836306858014_3_alg».proof.Proof.AggLoop
import proofs.«422423_j81836306858014_3_alg».proof.Proof.AggStepIdeal
import proofs.«422423_j81836306858014_3_alg».proof.Proof.MeanAggSpec
import proofs.«422423_j81836306858014_3_alg».proof.Proof.SumLaws
import Idealize.ShloMosaic.Lib.Pipeline.Value
import Idealize.ShloMosaic.Lib.ValueIdx

set_option maxRecDepth 16384

noncomputable section

namespace Cert.KernelIdeal.Agg

open Cert.KernelIdeal Cert.KernelIdeal.Gen Cert.MeanAgg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The node features the region stages, as a plain function. -/
def hOf (dev : Dev nD) : Fin 10000 → Fin 128 → EReal := fun n d => (V dev main_v0 : S10000x128.Idx → EReal) (ix2 n d)
/-- Each half's source ids. -/
def srcOf (dev : Dev nD) : Fin 2 → Fin 320000 → BitVec 32 := fun c r => (V dev main_v1 : S2x320000x1.Idx → BitVec 32) (ix3 c r 0)
/-- Each half's destination ids. -/
def dstOf (dev : Dev nD) : Fin 2 → Fin 320000 → BitVec 32 := fun c r => (V dev main_v2 : S2x320000x1.Idx → BitVec 32) (ix3 c r 0)
/-- Each half's edge weights. -/
def wOf (dev : Dev nD) : Fin 2 → Fin 320000 → EReal := fun c r => (V dev main_v3 : S2x320000x1.Idx → EReal) (ix3 c r 0)

/-- The block index maps of the three edge windows and of the two accumulator windows, read off the grid point:
    the half is t / 125 and the step within the half is t % 125. -/
theorem idx_facts : ∀ t : Fin cfg0.N,
    (win0_1.index t (0 : Fin 3) = t.val / 125 ∧ win0_1.index t (1 : Fin 3) = t.val % 125 ∧ win0_1.index t (2 : Fin 3) = 0)
    ∧ (win0_2.index t (0 : Fin 3) = t.val / 125 ∧ win0_2.index t (1 : Fin 3) = t.val % 125 ∧ win0_2.index t (2 : Fin 3) = 0)
    ∧ (win0_3.index t (0 : Fin 3) = t.val / 125 ∧ win0_3.index t (1 : Fin 3) = t.val % 125 ∧ win0_3.index t (2 : Fin 3) = 0)
    ∧ (win0_4.index t (0 : Fin 3) = t.val / 125 ∧ win0_4.index t (1 : Fin 3) = 0 ∧ win0_4.index t (2 : Fin 3) = 0)
    ∧ (win0_5.index t (0 : Fin 3) = t.val / 125 ∧ win0_5.index t (1 : Fin 3) = 0 ∧ win0_5.index t (2 : Fin 3) = 0)
    ∧ (win0_0.index t (0 : Fin 2) = 0 ∧ win0_0.index t (1 : Fin 2) = 0) :=
  (by decide +kernel : ∀ t : Fin grid0.N, _)

/-- A row of the point's block of source ids is the row of its half at step * 2560 + the row. -/
theorem blk_src (dev : Dev nD) (t : Fin cfg0.N) (c : Fin 2) (r : Fin 2560) (r' : Fin 320000)
    (hc : t.val / 125 = c.val) (hr : (t.val % 125) * 2560 + r.val = r'.val) :
    (iblk0 V dev 1 t : S1x2560x1.Idx → BitVec 32) (ix3 0 r 0) = srcOf V dev c r' := by
  obtain ⟨⟨e0, e1, e2⟩, -⟩ := idx_facts t
  unfold iblk0 srcOf
  rw [View.read_apply]
  show V dev main_v1 _ = V dev main_v1 _
  congr 1
  funext a
  apply Fin.ext
  match a with
  | ⟨0, _⟩ => show win0_1.index t (0 : Fin 3) * 1 + 1 * 0 = c.val; rw [e0]; omega
  | ⟨1, _⟩ => show win0_1.index t (1 : Fin 3) * 2560 + 1 * r.val = r'.val; rw [e1]; omega
  | ⟨2, _⟩ => show win0_1.index t (2 : Fin 3) * 1 + 1 * 0 = 0; rw [e2]

/-- The same for the destination ids. -/
theorem blk_dst (dev : Dev nD) (t : Fin cfg0.N) (c : Fin 2) (r : Fin 2560) (r' : Fin 320000)
    (hc : t.val / 125 = c.val) (hr : (t.val % 125) * 2560 + r.val = r'.val) :
    (iblk0 V dev 2 t : S1x2560x1.Idx → BitVec 32) (ix3 0 r 0) = dstOf V dev c r' := by
  obtain ⟨-, ⟨e0, e1, e2⟩, -⟩ := idx_facts t
  unfold iblk0 dstOf
  rw [View.read_apply]
  show V dev main_v2 _ = V dev main_v2 _
  congr 1
  funext a
  apply Fin.ext
  match a with
  | ⟨0, _⟩ => show win0_2.index t (0 : Fin 3) * 1 + 1 * 0 = c.val; rw [e0]; omega
  | ⟨1, _⟩ => show win0_2.index t (1 : Fin 3) * 2560 + 1 * r.val = r'.val; rw [e1]; omega
  | ⟨2, _⟩ => show win0_2.index t (2 : Fin 3) * 1 + 1 * 0 = 0; rw [e2]

/-- The same for the edge weights. -/
theorem blk_w (dev : Dev nD) (t : Fin cfg0.N) (c : Fin 2) (r : Fin 2560) (r' : Fin 320000)
    (hc : t.val / 125 = c.val) (hr : (t.val % 125) * 2560 + r.val = r'.val) :
    (iblk0 V dev 3 t : S1x2560x1.Idx → EReal) (ix3 0 r 0) = wOf V dev c r' := by
  obtain ⟨-, -, ⟨e0, e1, e2⟩, -⟩ := idx_facts t
  unfold iblk0 wOf
  rw [View.read_apply]
  show V dev main_v3 _ = V dev main_v3 _
  congr 1
  funext a
  apply Fin.ext
  match a with
  | ⟨0, _⟩ => show win0_3.index t (0 : Fin 3) * 1 + 1 * 0 = c.val; rw [e0]; omega
  | ⟨1, _⟩ => show win0_3.index t (1 : Fin 3) * 2560 + 1 * r.val = r'.val; rw [e1]; omega
  | ⟨2, _⟩ => show win0_3.index t (2 : Fin 3) * 1 + 1 * 0 = 0; rw [e2]

/-- The feature window's block is the whole feature array at every point. -/
theorem blk_feat (dev : Dev nD) (t : Fin cfg0.N) (n : Fin 10000) (d : Fin 128) :
    (iblk0 V dev 0 t : S10000x128.Idx → EReal) (ix2 n d) = hOf V dev n d := by
  obtain ⟨-, -, -, -, -, e0, e1⟩ := idx_facts t
  unfold iblk0 hOf
  rw [View.read_apply]
  show V dev main_v0 _ = V dev main_v0 _
  congr 1
  funext a
  apply Fin.ext
  match a with
  | ⟨0, _⟩ => show win0_0.index t (0 : Fin 2) * 10000 + 1 * n.val = n.val; rw [e0]; omega
  | ⟨1, _⟩ => show win0_0.index t (1 : Fin 2) * 128 + 1 * d.val = d.val; rw [e1]; omega

/-- One point's ten trips, started from an accumulator that holds the first i * 10 blocks of half c, end holding
    the first (i + 1) * 10: the ten trips' edges are blocks i * 10 … i * 10 + 9 of the half. -/
theorem acc_step (dev : Dev nD) (t : Fin cfg0.N) (c : Fin 2) (i : ℕ) (hi : i < 125)
    (hc : t.val / 125 = c.val) (hti : t.val % 125 = i)
    (a : FVec Ideal S1x10000x128 .f32) (nd : Fin 10000) (d : Fin 128)
    (ha : a (ix3 0 nd d) = accC (hOf V dev) (srcOf V dev) (dstOf V dev) (wOf V dev) c (i * 10) nd d) :
    accFold (F := Ideal) (iblk0 V dev 0 t) (iblk0 V dev 1 t) (iblk0 V dev 2 t) (iblk0 V dev 3 t) k0_t1_loop.trips a (ix3 0 nd d)
      = accC (hOf V dev) (srcOf V dev) (dstOf V dev) (wOf V dev) c ((i + 1) * 10) nd d := by
  refine (accFold_apply (iblk0 V dev 0 t) (iblk0 V dev 1 t) (iblk0 V dev 2 t) (iblk0 V dev 3 t) a nd d).trans ?_
  rw [ha, accC_block (hOf V dev) (srcOf V dev) (dstOf V dev) (wOf V dev) c i hi nd d]
  refine congrArg (fun z => accC (hOf V dev) (srcOf V dev) (dstOf V dev) (wOf V dev) c (i * 10) nd d + z) ?_
  refine Finset.sum_congr rfl fun k _ => ?_
  unfold contribC
  refine Finset.sum_congr rfl fun e _ => ?_
  have hr : (t.val % 125) * 2560 + (blkRow k e).val = (row ⟨i * 10 + k.val, by omega⟩ e).val := by
    show t.val % 125 * 2560 + (k.val * 256 + e.val) = (i * 10 + k.val) * 256 + e.val
    omega
  rw [blk_dst V dev t c (blkRow k e) _ hc hr, blk_src V dev t c (blkRow k e) _ hc hr, blk_w V dev t c (blkRow k e) _ hc hr]
  unfold msgC
  refine if_congr Iff.rfl (congrArg (fun z => z * wOf V dev c (row ⟨i * 10 + k.val, by omega⟩ e)) ?_) rfl
  refine Finset.sum_congr rfl fun n' _ => ?_
  rw [blk_feat V dev t n' d]

/-- The same for the degree accumulator: ten more blocks' edge counts. -/
theorem deg_step (dev : Dev nD) (t : Fin cfg0.N) (c : Fin 2) (i : ℕ) (hi : i < 125)
    (hc : t.val / 125 = c.val) (hti : t.val % 125 = i)
    (g : FVec Ideal S1x1x10000 .f32) (nd : Fin 10000)
    (hg : g (ix3 0 0 nd) = degC (dstOf V dev) c (i * 10) nd) :
    degFold (F := Ideal) (iblk0 V dev 2 t) k0_t1_loop.trips g (ix3 0 0 nd) = degC (dstOf V dev) c ((i + 1) * 10) nd := by
  refine (degFold_apply (iblk0 V dev 2 t) g nd).trans ?_
  rw [hg, degC_block (dstOf V dev) c i hi nd]
  refine congrArg (fun z => degC (dstOf V dev) c (i * 10) nd + z) ?_
  refine Finset.sum_congr rfl fun k _ => ?_
  unfold degContribC
  refine Finset.sum_congr rfl fun e _ => ?_
  have hr : (t.val % 125) * 2560 + (blkRow k e).val = (row ⟨i * 10 + k.val, by omega⟩ e).val := by
    show t.val % 125 * 2560 + (k.val * 256 + e.val) = (i * 10 + k.val) * 256 + e.val
    omega
  rw [blk_dst V dev t c (blkRow k e) _ hc hr]

/-- No blocks summed is zero. -/
theorem accC_zero (hF : Fin 10000 → Fin 128 → EReal) (srcC dstC : Fin 2 → Fin 320000 → BitVec 32) (wC : Fin 2 → Fin 320000 → EReal)
    (c : Fin 2) (n : Fin 10000) (d : Fin 128) : accC hF srcC dstC wC c 0 n d = 0 := by
  unfold accC; rw [Finset.range_zero, Finset.sum_empty]

/-- No blocks counted is zero. -/
theorem degC_zero (dstC : Fin 2 → Fin 320000 → BitVec 32) (c : Fin 2) (n : Fin 10000) : degC dstC c 0 n = 0 := by
  unfold degC; rw [Finset.range_zero, Finset.sum_empty]

/-- After point n the feature accumulator holds the first (n % 125 + 1) * 10 blocks of half n / 125: at a half's first
    point the ten trips start from zero, at a later one from what the point before left. -/
theorem acc_inv (dev : Dev nD) (nd : Fin 10000) (d : Fin 128) : ∀ (n : ℕ) (hn : n < cfg0.N) (c : Fin 2) (hc : n / 125 = c.val),
    ((outsAt0 V dev n hn).1 : S1x10000x128.Idx → EReal) (ix3 0 nd d)
      = accC (hOf V dev) (srcOf V dev) (dstOf V dev) (wOf V dev) c ((n % 125 + 1) * 10) nd d := by
  intro n
  induction n with
  | zero =>
    intro hn c hc
    rw [outsAt0_A V dev ⟨0, hn⟩ rfl]
    dsimp only
    rw [out0_A_4_eq]
    refine acc_step V dev ⟨0, hn⟩ c 0 (by omega) hc rfl _ nd d ?_
    rw [zeroAcc_apply, Nat.zero_mul, accC_zero]
  | succ n ih =>
    intro hn c hc
    have hN : n + 1 < 250 := lt_of_lt_of_eq hn (show cfg0.N = 250 from N_0)
    by_cases h0 : (n + 1) % 125 = 0
    · rw [outsAt0_A V dev ⟨n + 1, hn⟩ h0]
      dsimp only
      rw [out0_A_4_eq, h0]
      refine acc_step V dev ⟨n + 1, hn⟩ c 0 (by omega) hc h0 _ nd d ?_
      rw [zeroAcc_apply, Nat.zero_mul, accC_zero]
    · rw [outsAt0_B V dev ⟨n + 1, hn⟩ h0]
      dsimp only
      rw [out0_B_4_eq]
      refine acc_step V dev ⟨n + 1, hn⟩ c ((n + 1) % 125) (by omega) hc rfl _ nd d ?_
      have e : (n + 1) % 125 * 10 = (n % 125 + 1) * 10 := by omega
      rw [e]
      exact ih (Nat.lt_of_succ_lt hn) c (by omega)

/-- After point n the degree accumulator holds the edge counts of the same blocks. -/
theorem deg_inv (dev : Dev nD) (nd : Fin 10000) : ∀ (n : ℕ) (hn : n < cfg0.N) (c : Fin 2) (hc : n / 125 = c.val),
    ((outsAt0 V dev n hn).2 : S1x1x10000.Idx → EReal) (ix3 0 0 nd) = degC (dstOf V dev) c ((n % 125 + 1) * 10) nd := by
  intro n
  induction n with
  | zero =>
    intro hn c hc
    rw [outsAt0_A V dev ⟨0, hn⟩ rfl]
    dsimp only
    rw [out0_A_5_eq]
    refine deg_step V dev ⟨0, hn⟩ c 0 (by omega) hc rfl _ nd ?_
    rw [zeroDeg_apply, Nat.zero_mul, degC_zero]
  | succ n ih =>
    intro hn c hc
    have hN : n + 1 < 250 := lt_of_lt_of_eq hn (show cfg0.N = 250 from N_0)
    by_cases h0 : (n + 1) % 125 = 0
    · rw [outsAt0_A V dev ⟨n + 1, hn⟩ h0]
      dsimp only
      rw [out0_A_5_eq, h0]
      refine deg_step V dev ⟨n + 1, hn⟩ c 0 (by omega) hc h0 _ nd ?_
      rw [zeroDeg_apply, Nat.zero_mul, degC_zero]
    · rw [outsAt0_B V dev ⟨n + 1, hn⟩ h0]
      dsimp only
      rw [out0_B_5_eq]
      refine deg_step V dev ⟨n + 1, hn⟩ c ((n + 1) % 125) (by omega) hc rfl _ nd ?_
      have e : (n + 1) % 125 * 10 = (n % 125 + 1) * 10 := by omega
      rw [e]
      exact ih (Nat.lt_of_succ_lt hn) c (by omega)

/-- The final feature array: slab c is all 1250 blocks of half c. -/
def accArr (dev : Dev nD) : S2x10000x128.Idx → EReal :=
  fun i => accC (hOf V dev) (srcOf V dev) (dstOf V dev) (wOf V dev) (i 0) 1250 (i 1) (i 2)

/-- That array at an entry given by its coordinates. -/
theorem accArr_at (dev : Dev nD) (i : S2x10000x128.Idx) (c : Fin 2) (nd : Fin 10000) (d : Fin 128)
    (h0 : (i 0).val = c.val) (h1 : (i 1).val = nd.val) (h2 : (i 2).val = d.val) :
    accArr V dev i = accC (hOf V dev) (srcOf V dev) (dstOf V dev) (wOf V dev) c 1250 nd d := by
  unfold accArr
  rw [show i 0 = c from Fin.ext h0, show i 1 = nd from Fin.ext h1, show i 2 = d from Fin.ext h2]

/-- What a half's last point writes back is slab t / 125 of that array. -/
theorem flushed_acc (dev : Dev nD) (t : Fin cfg0.N) (hf : (cfg0.win 4).flush t = true) :
    (dat0 V dev).flushed 4 t = ((cfg0.win 4).blk t).view.read (Elt Ideal) (accArr V dev) := by
  have hN : t.val < 250 := lt_of_lt_of_eq t.isLt (show cfg0.N = 250 from N_0)
  have h124 : t.val % 125 = 124 := (flush0_4 t).mp hf
  obtain ⟨-, -, -, ⟨e0, e1, e2⟩, -⟩ := idx_facts t
  show (cfg0.win 4).cut (grid0.coords t) ((dat0 V dev).after 4 t) = _
  rw [after0_4]
  funext y
  rw [View.read_apply]
  have y0 : (y 0).val < 1 := (y 0).isLt
  have y1 : (y 1).val < 10000 := (y 1).isLt
  have y2 : (y 2).val < 128 := (y 2).isLt
  have hy : (cfg0.win 4).xinj (grid0.coords t) y
      = (ix3 (0 : Fin 1) (⟨(y 1).val, y1⟩ : Fin 10000) (⟨(y 2).val, y2⟩ : Fin 128) : S1x10000x128.Idx) := by
    funext a
    match a with
    | ⟨0, _⟩ => exact Fin.ext (by show (y 0).val = 0; omega)
    | ⟨1, _⟩ => rfl
    | ⟨2, _⟩ => rfl
  show ((outsAt0 V dev t.val t.isLt).1 : S1x10000x128.Idx → EReal) ((cfg0.win 4).xinj (grid0.coords t) y) = accArr V dev (((cfg0.win 4).blk t).view.emb y)
  rw [hy, acc_inv V dev ⟨(y 1).val, y1⟩ ⟨(y 2).val, y2⟩ t.val t.isLt ⟨t.val / 125, by omega⟩ rfl, h124]
  refine (accArr_at V dev _ ⟨t.val / 125, by omega⟩ ⟨(y 1).val, y1⟩ ⟨(y 2).val, y2⟩ ?_ ?_ ?_).symm
  · show win0_4.index t (0 : Fin 3) * 1 + 1 * (y 0).val = t.val / 125; rw [e0]; omega
  · show win0_4.index t (1 : Fin 3) * 10000 + 1 * (y 1).val = (y 1).val; rw [e1]; omega
  · show win0_4.index t (2 : Fin 3) * 128 + 1 * (y 2).val = (y 2).val; rw [e2]; omega

/-- Every entry of the feature result lies in the block some half's last point writes back: entry (c, ·, ·) in that
    of point c * 125 + 124. -/
theorem cover_acc (i : S2x10000x128.Idx) :
    ∃ t : Fin cfg0.N, (cfg0.win 4).flush t = true ∧ i ∈ ((cfg0.win 4).blk t).view.set := by
  have i0 : (i 0).val < 2 := (i 0).isLt
  have i1 : (i 1).val < 10000 := (i 1).isLt
  have i2 : (i 2).val < 128 := (i 2).isLt
  obtain ⟨t, ht⟩ : ∃ t : Fin cfg0.N, t.val = (i 0).val * 125 + 124 :=
    ⟨⟨(i 0).val * 125 + 124, by rw [show cfg0.N = 250 from N_0]; omega⟩, rfl⟩
  obtain ⟨-, -, -, ⟨e0, e1, e2⟩, -⟩ := idx_facts t
  refine ⟨t, (flush0_4 t).mpr (by omega), ?_⟩
  show i ∈ ((View.whole main_v4_0).slice (win0_4.rect t)).set
  rw [View.set_slice_whole, Rect.mem_set_unit]
  intro a
  match a with
  | ⟨0, _⟩ =>
    show win0_4.index t (0 : Fin 3) * 1 ≤ (i 0).val ∧ (i 0).val < win0_4.index t (0 : Fin 3) * 1 + 1
    rw [e0]; omega
  | ⟨1, _⟩ =>
    show win0_4.index t (1 : Fin 3) * 10000 ≤ (i 1).val ∧ (i 1).val < win0_4.index t (1 : Fin 3) * 10000 + 10000
    rw [e1]; omega
  | ⟨2, _⟩ =>
    show win0_4.index t (2 : Fin 3) * 128 ≤ (i 2).val ∧ (i 2).val < win0_4.index t (2 : Fin 3) * 128 + 128
    rw [e2]; omega

/-- Slab c of the final feature array is the sum of all 1250 blocks of half c. -/
theorem acc_final (dev : Dev nD) (c : Fin 2) (n : Fin 10000) (d : Fin 128) :
    ((dat0 V dev).arrAt 4 cfg0.N : S2x10000x128.Idx → EReal) (ix3 c n d)
      = accC (hOf V dev) (srcOf V dev) (dstOf V dev) (wOf V dev) c 1250 n d := by
  have hfin := (dat0 V dev).arrAt_eq_of_cover 4 (accArr V dev) (flushed_acc V dev) cover_acc
  exact (congrFun hfin (ix3 c n d)).trans (accArr_at V dev _ c n d rfl rfl rfl)

/-- The final degree array: slab c is the edge counts of all 1250 blocks of half c. -/
def degArr (dev : Dev nD) : S2x1x10000.Idx → EReal :=
  fun i => degC (dstOf V dev) (i 0) 1250 (i 2)

/-- That array at an entry given by its coordinates. -/
theorem degArr_at (dev : Dev nD) (i : S2x1x10000.Idx) (c : Fin 2) (nd : Fin 10000)
    (h0 : (i 0).val = c.val) (h2 : (i 2).val = nd.val) :
    degArr V dev i = degC (dstOf V dev) c 1250 nd := by
  unfold degArr
  rw [show i 0 = c from Fin.ext h0, show i 2 = nd from Fin.ext h2]

/-- What a half's last point writes back is slab t / 125 of that array. -/
theorem flushed_deg (dev : Dev nD) (t : Fin cfg0.N) (hf : (cfg0.win 5).flush t = true) :
    (dat0 V dev).flushed 5 t = ((cfg0.win 5).blk t).view.read (Elt Ideal) (degArr V dev) := by
  have hN : t.val < 250 := lt_of_lt_of_eq t.isLt (show cfg0.N = 250 from N_0)
  have h124 : t.val % 125 = 124 := (flush0_5 t).mp hf
  obtain ⟨-, -, -, -, ⟨e0, e1, e2⟩, -⟩ := idx_facts t
  show (cfg0.win 5).cut (grid0.coords t) ((dat0 V dev).after 5 t) = _
  rw [after0_5]
  funext y
  rw [View.read_apply]
  have y0 : (y 0).val < 1 := (y 0).isLt
  have y1 : (y 1).val < 1 := (y 1).isLt
  have y2 : (y 2).val < 10000 := (y 2).isLt
  have hy : (cfg0.win 5).xinj (grid0.coords t) y
      = (ix3 (0 : Fin 1) (0 : Fin 1) (⟨(y 2).val, y2⟩ : Fin 10000) : S1x1x10000.Idx) := by
    funext a
    match a with
    | ⟨0, _⟩ => exact Fin.ext (by show (y 0).val = 0; omega)
    | ⟨1, _⟩ => exact Fin.ext (by show (y 1).val = 0; omega)
    | ⟨2, _⟩ => rfl
  show ((outsAt0 V dev t.val t.isLt).2 : S1x1x10000.Idx → EReal) ((cfg0.win 5).xinj (grid0.coords t) y) = degArr V dev (((cfg0.win 5).blk t).view.emb y)
  rw [hy, deg_inv V dev ⟨(y 2).val, y2⟩ t.val t.isLt ⟨t.val / 125, by omega⟩ rfl, h124]
  refine (degArr_at V dev _ ⟨t.val / 125, by omega⟩ ⟨(y 2).val, y2⟩ ?_ ?_).symm
  · show win0_5.index t (0 : Fin 3) * 1 + 1 * (y 0).val = t.val / 125; rw [e0]; omega
  · show win0_5.index t (2 : Fin 3) * 10000 + 1 * (y 2).val = (y 2).val; rw [e2]; omega

/-- Every entry of the degree result lies in the block some half's last point writes back. -/
theorem cover_deg (i : S2x1x10000.Idx) :
    ∃ t : Fin cfg0.N, (cfg0.win 5).flush t = true ∧ i ∈ ((cfg0.win 5).blk t).view.set := by
  have i0 : (i 0).val < 2 := (i 0).isLt
  have i1 : (i 1).val < 1 := (i 1).isLt
  have i2 : (i 2).val < 10000 := (i 2).isLt
  obtain ⟨t, ht⟩ : ∃ t : Fin cfg0.N, t.val = (i 0).val * 125 + 124 :=
    ⟨⟨(i 0).val * 125 + 124, by rw [show cfg0.N = 250 from N_0]; omega⟩, rfl⟩
  obtain ⟨-, -, -, -, ⟨e0, e1, e2⟩, -⟩ := idx_facts t
  refine ⟨t, (flush0_5 t).mpr (by omega), ?_⟩
  show i ∈ ((View.whole main_v4_1).slice (win0_5.rect t)).set
  rw [View.set_slice_whole, Rect.mem_set_unit]
  intro a
  match a with
  | ⟨0, _⟩ =>
    show win0_5.index t (0 : Fin 3) * 1 ≤ (i 0).val ∧ (i 0).val < win0_5.index t (0 : Fin 3) * 1 + 1
    rw [e0]; omega
  | ⟨1, _⟩ =>
    show win0_5.index t (1 : Fin 3) * 1 ≤ (i 1).val ∧ (i 1).val < win0_5.index t (1 : Fin 3) * 1 + 1
    rw [e1]; omega
  | ⟨2, _⟩ =>
    show win0_5.index t (2 : Fin 3) * 10000 ≤ (i 2).val ∧ (i 2).val < win0_5.index t (2 : Fin 3) * 10000 + 10000
    rw [e2]; omega

/-- Slab c of the final degree array is the edge count of all 1250 blocks of half c. -/
theorem deg_final (dev : Dev nD) (c : Fin 2) (n : Fin 10000) :
    ((dat0 V dev).arrAt 5 cfg0.N : S2x1x10000.Idx → EReal) (ix3 c 0 n) = degC (dstOf V dev) c 1250 n := by
  have hfin := (dat0 V dev).arrAt_eq_of_cover 5 (degArr V dev) (flushed_deg V dev) cover_deg
  exact (congrFun hfin (ix3 c 0 n)).trans (degArr_at V dev _ c n rfl rfl)

end Cert.KernelIdeal.Agg

end
-- ==== Proof.LinValue.lean ====
/- The linear region's result array. Each of its ten grid points takes 1000 nodes: it adds the two halves' collected
   sums, divides by the degree raised to at least one, and leaves h · W₁ + mean · W₂ + b for those nodes; the ten blocks
   tile the result, so every row of it is that expression of the arrays the region finds. -/
import proofs.«422423_j81836306858014_3_alg».proof.Proof.Gen.KernelIdeal.Frame
import proofs.«422423_j81836306858014_3_alg».proof.Proof.MeanAggSpec
import proofs.«422423_j81836306858014_3_alg».proof.Proof.Consts
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Lin

open Cert.KernelIdeal Cert.KernelIdeal.Gen Cert.MeanAgg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The node features, as the region finds them. -/
def hA (dev : Dev nD) : Fin 10000 → Fin 128 → EReal := fun n k => (V dev main_arg0 : S10000x128.Idx → EReal) (ix2 n k)
/-- The two halves' collected sums. -/
def accA (dev : Dev nD) : Fin 2 → Fin 10000 → Fin 128 → EReal := fun c n k => (V dev main_v4_0 : S2x10000x128.Idx → EReal) (ix3 c n k)
/-- The degree column. -/
def degA (dev : Dev nD) : Fin 10000 → EReal := fun n => (V dev main_v6 : S10000x1.Idx → EReal) (ix2 n 0)
/-- The weight rows that meet h, and those that meet the mean. -/
def w1A (dev : Dev nD) : Fin 128 → Fin 128 → EReal := fun k d => (V dev main_v7 : S128x128.Idx → EReal) (ix2 k d)
def w2A (dev : Dev nD) : Fin 128 → Fin 128 → EReal := fun k d => (V dev main_v8 : S128x128.Idx → EReal) (ix2 k d)
/-- The bias row. -/
def bA (dev : Dev nD) : Fin 128 → EReal := fun d => (V dev main_v9 : S1x128.Idx → EReal) (ix2 0 d)

/-- The two-axis zero offset, as the constant function. -/
theorem hz2 : (![0, 0] : Fin 2 → Nat) = fun _ => 0 := funext fun a => by fin_cases a <;> rfl

/-! ## The product of a block of rows with a square of weights, at an entry -/

/-- The left factor is read at the entry's row and the shared coordinate, the right one at the shared coordinate and the
    entry's column: the four coordinates, one by one. -/
theorem lhs_dot_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem lhs_dot_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem rhs_dot_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem rhs_dot_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- Entry (p, q) of the product accumulated from zero is the sum over the 128 shared coordinates of row p of the left
    factor against column q of the right one. -/
theorem matmul_at (x : FVec Ideal S1000x128 .bf16) (w : FVec Ideal S128x128 .bf16) (p : Fin 1000) (q : Fin 128) :
    matmul (F := Ideal) dot_S1000x128_S128x128_S1000x128_1_0_0_1_n_n none x w (constant (F := Ideal) S1000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p q) ((ValueIdx.contrEquiv1 dot_S1000x128_S128x128_S1000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S1000x128_S128x128_S1000x128_1_0_0_1_n_n.rhsIdx (ix2 p q) ((ValueIdx.contrEquiv1 dot_S1000x128_S128x128_S1000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- A column spread over the lanes reads, at (p, c), the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## What one grid point stores, at an entry -/

/-- Entry (p, q) of the stored block: row p of the features against column q of the first weights, plus row p of the
    two halves' sums added and divided by the degree raised to at least one against column q of the second weights, plus
    the bias at q. -/
theorem pay_at (v0 v2 : Vec Ideal S1x1000x128 .f32) (v5 : Vec Ideal S1000x1 .f32) (v11 : Vec Ideal S1000x128 .f32)
    (v14 v17 : Vec Ideal S128x128 .f32) (v23 : Vec Ideal S1x128 .f32) (p : Fin 1000) (q : Fin 128) :
    (k1_pay1 (F := Ideal) v0 v2 v5 v11 v14 v17 v23 : S1000x128.Idx → EReal) (ix2 p q)
      = (∑ k : Fin 128, (v11 : S1000x128.Idx → EReal) (ix2 p k) * (v14 : S128x128.Idx → EReal) (ix2 k q))
        + (∑ k : Fin 128, Ideal.div ((v0 : S1x1000x128.Idx → EReal) (ix3 (0 : Fin 1) p k) + (v2 : S1x1000x128.Idx → EReal) (ix3 (0 : Fin 1) p k))
              (max ((v5 : S1000x1.Idx → EReal) (ix2 p (0 : Fin 1))) 1) * (v17 : S128x128.Idx → EReal) (ix2 k q))
        + (v23 : S1x128.Idx → EReal) (ix2 (0 : Fin 1) q) := by
  unfold k1_pay1
  simp only [shapeCast_self]
  rw [addf_apply, addf_apply, matmul_at, matmul_at, broadcastTo_1b_ab_apply]
  simp only [truncf_apply, divf_apply, addf_apply, broadcastTo_a1_ab_apply, maximumf_apply, broadcast_apply, shapeCast_1ab_ab_apply]
  rw [show (FloatOps.ofBits .f32 0x3F800000#32 : Ideal .f32) = 1 from Cert.Consts.ofBits_f32_one]

/-! ## The halves of the collected-sums block -/

/-- The first load of the two-halves block reads its half 0. -/
theorem ld_half0 (X : Vec Ideal S2x1000x128 .f32) (u : Fin 1) (p : Fin 1000) (k : Fin 128) :
    (View.ld X r1_0 : S1x1000x128.Idx → EReal) (ix3 u p k) = (X : S2x1000x128.Idx → EReal) (ix3 (0 : Fin 2) p k) := by
  show (X : S2x1000x128.Idx → EReal) (r1_0.idx (ix3 u p k)) = _
  refine congrArg _ (funext fun a => Fin.ext ?_)
  match a with
  | ⟨0, _⟩ => show 0 + 1 * u.val = 0; omega
  | ⟨1, _⟩ => show 0 + 1 * p.val = p.val; omega
  | ⟨2, _⟩ => show 0 + 1 * k.val = k.val; omega

/-- The second load reads its half 1. -/
theorem ld_half1 (X : Vec Ideal S2x1000x128 .f32) (u : Fin 1) (p : Fin 1000) (k : Fin 128) :
    (View.ld X r1_1 : S1x1000x128.Idx → EReal) (ix3 u p k) = (X : S2x1000x128.Idx → EReal) (ix3 (1 : Fin 2) p k) := by
  show (X : S2x1000x128.Idx → EReal) (r1_1.idx (ix3 u p k)) = _
  refine congrArg _ (funext fun a => Fin.ext ?_)
  match a with
  | ⟨0, _⟩ => show 1 + 1 * u.val = 1; omega
  | ⟨1, _⟩ => show 0 + 1 * p.val = p.val; omega
  | ⟨2, _⟩ => show 0 + 1 * k.val = k.val; omega

/-! ## A grid point's blocks, as rows of the arrays -/

/-- Where each window's block sits at grid point t: the node-indexed windows at block t on the node axis, the weights
    and the bias at their one block. -/
theorem blk_index : ∀ t : Fin cfg1.N,
    win1_0.index t (0 : Fin 2) = t.val ∧ win1_0.index t (1 : Fin 2) = 0
    ∧ win1_1.index t (0 : Fin 3) = 0 ∧ win1_1.index t (1 : Fin 3) = t.val ∧ win1_1.index t (2 : Fin 3) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of the features' block at point t is row 1000 t + p of the features. -/
theorem blk0_at (dev : Dev nD) (t : Fin cfg1.N) (p : Fin 1000) (k : Fin 128) (n : Fin 10000) (hn : n.val = t.val * 1000 + p.val) :
    (iblk1 V dev 0 t : S1000x128.Idx → EReal) (ix2 p k) = hA V dev n k := by
  obtain ⟨e0, e1, -⟩ := blk_index t
  unfold iblk1 hA
  rw [View.read_apply]
  show (V dev main_arg0 : S10000x128.Idx → EReal) (((cfg1.win 0).blk t).view.emb (ix2 p k)) = (V dev main_arg0 : S10000x128.Idx → EReal) (ix2 n k)
  refine congrArg _ (funext fun a => Fin.ext ?_)
  match a with
  | ⟨0, _⟩ => show win1_0.index t (0 : Fin 2) * 1000 + 1 * p.val = n.val; omega
  | ⟨1, _⟩ => show win1_0.index t (1 : Fin 2) * 128 + 1 * k.val = k.val; omega

/-- Row p of either half of the collected-sums block at point t is row 1000 t + p of that half. -/
theorem blk1_at (dev : Dev nD) (t : Fin cfg1.N) (c : Fin 2) (p : Fin 1000) (k : Fin 128) (n : Fin 10000) (hn : n.val = t.val * 1000 + p.val) :
    (iblk1 V dev 1 t : S2x1000x128.Idx → EReal) (ix3 c p k) = accA V dev c n k := by
  obtain ⟨-, -, e0, e1, e2, -⟩ := blk_index t
  unfold iblk1 accA
  rw [View.read_apply]
  show (V dev main_v4_0 : S2x10000x128.Idx → EReal) (((cfg1.win 1).blk t).view.emb (ix3 c p k)) = (V dev main_v4_0 : S2x10000x128.Idx → EReal) (ix3 c n k)
  refine congrArg _ (funext fun a => Fin.ext ?_)
  match a with
  | ⟨0, _⟩ => show win1_1.index t (0 : Fin 3) * 2 + 1 * c.val = c.val; omega
  | ⟨1, _⟩ => show win1_1.index t (1 : Fin 3) * 1000 + 1 * p.val = n.val; omega
  | ⟨2, _⟩ => show win1_1.index t (2 : Fin 3) * 128 + 1 * k.val = k.val; omega

/-- Entry p of the degree block at point t is the degree of node 1000 t + p. -/
theorem blk2_at (dev : Dev nD) (t : Fin cfg1.N) (p : Fin 1000) (u : Fin 1) (n : Fin 10000) (hn : n.val = t.val * 1000 + p.val) :
    (iblk1 V dev 2 t : S1000x1.Idx → EReal) (ix2 p u) = degA V dev n := by
  obtain ⟨-, -, -, -, -, e0, e1, -⟩ := blk_index t
  unfold iblk1 degA
  rw [View.read_apply]
  show (V dev main_v6 : S10000x1.Idx → EReal) (((cfg1.win 2).blk t).view.emb (ix2 p u)) = (V dev main_v6 : S10000x1.Idx → EReal) (ix2 n 0)
  refine congrArg _ (funext fun a => Fin.ext ?_)
  match a with
  | ⟨0, _⟩ => show win1_2.index t (0 : Fin 2) * 1000 + 1 * p.val = n.val; omega
  | ⟨1, _⟩ => show win1_2.index t (1 : Fin 2) * 1 + 1 * u.val = 0; omega

/-- The first weights' block is the whole of them at every point. -/
theorem blk3_at (dev : Dev nD) (t : Fin cfg1.N) (k d : Fin 128) :
    (iblk1 V dev 3 t : S128x128.Idx → EReal) (ix2 k d) = w1A V dev k d := by
  obtain ⟨-, -, -, -, -, -, -, e0, e1, -⟩ := blk_index t
  unfold iblk1 w1A
  rw [View.read_apply]
  show (V dev main_v7 : S128x128.Idx → EReal) (((cfg1.win 3).blk t).view.emb (ix2 k d)) = (V dev main_v7 : S128x128.Idx → EReal) (ix2 k d)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * d.val = d.val; omega

/-- So is the second weights'. -/
theorem blk4_at (dev : Dev nD) (t : Fin cfg1.N) (k d : Fin 128) :
    (iblk1 V dev 4 t : S128x128.Idx → EReal) (ix2 k d) = w2A V dev k d := by
  obtain ⟨-, -, -, -, -, -, -, -, -, e0, e1, -⟩ := blk_index t
  unfold iblk1 w2A
  rw [View.read_apply]
  show (V dev main_v8 : S128x128.Idx → EReal) (((cfg1.win 4).blk t).view.emb (ix2 k d)) = (V dev main_v8 : S128x128.Idx → EReal) (ix2 k d)
  refine congrArg _ (funext fun a => Fin.ext ?_)
  match a with
  | ⟨0, _⟩ => show win1_4.index t (0 : Fin 2) * 128 + 1 * k.val = k.val; omega
  | ⟨1, _⟩ => show win1_4.index t (1 : Fin 2) * 128 + 1 * d.val = d.val; omega

/-- And the bias row's. -/
theorem blk5_at (dev : Dev nD) (t : Fin cfg1.N) (u : Fin 1) (d : Fin 128) :
    (iblk1 V dev 5 t : S1x128.Idx → EReal) (ix2 u d) = bA V dev d := by
  obtain ⟨-, -, -, -, -, -, -, -, -, -, -, e0, e1, -⟩ := blk_index t
  unfold iblk1 bA
  rw [View.read_apply]
  show (V dev main_v9 : S1x128.Idx → EReal) (((cfg1.win 5).blk t).view.emb (ix2 u d)) = (V dev main_v9 : S1x128.Idx → EReal) (ix2 0 d)
  refine congrArg _ (funext fun a => Fin.ext ?_)
  match a with
  | ⟨0, _⟩ => show win1_5.index t (0 : Fin 2) * 1 + 1 * u.val = 0; omega
  | ⟨1, _⟩ => show win1_5.index t (1 : Fin 2) * 128 + 1 * d.val = d.val; omega

/-! ## From the blocks to the array -/

/-- The layer's row, as one function of the result array's index. -/
def linG (dev : Dev nD) : S10000x128.Idx → EReal := fun i =>
  (∑ k : Fin 128, hA V dev (i 0) k * w1A V dev k (i 1))
    + (∑ k : Fin 128, Ideal.div (accA V dev 0 (i 0) k + accA V dev 1 (i 0) k) (max (degA V dev (i 0)) 1) * w2A V dev k (i 1))
    + bA V dev (i 1)

/-- What point t writes back is block t of the layer's rows: each entry of the stored block is the payload at that entry,
    and the point's blocks are the rows 1000 t … 1000 t + 999 of the node-indexed arrays, all of the weights and the bias. -/
theorem flushed_eq (dev : Dev nD) (t : Fin cfg1.N) :
    (dat1 V dev).flushed 6 t = ((cfg1.win 6).blk t).view.read (Elt Ideal) (linG V dev) := by
  show (cfg1.win 6).cut (grid1.coords t) ((dat1 V dev).after 6 t) = _
  rw [after1_6]
  unfold out1_6
  rw [View.canon_unit_zero hz2]
  simp only [View.ld_unit_zero (S := S1000x128) hz2, View.ld_unit_zero (S := S1000x1) hz2, View.ld_unit_zero (S := S128x128) hz2, View.ld_unit_zero (S := S1x128) hz2]
  funext j
  obtain ⟨p, q, rfl⟩ : ∃ (p : Fin 1000) (q : Fin 128), j = ix2 p q := ⟨j 0, j 1, eq_ix2 j⟩
  obtain ⟨-, -, -, -, -, -, -, -, -, -, -, -, -, e0, e1⟩ := blk_index t
  have ht : t.val < 10 := lt_of_lt_of_eq t.isLt N_1
  obtain ⟨n, hn⟩ : ∃ n : Fin 10000, n.val = t.val * 1000 + p.val := ⟨⟨t.val * 1000 + p.val, by have := p.isLt; omega⟩, rfl⟩
  have eo : ((cfg1.win 6).blk t).view.emb (ix2 p q) = (ix2 n q : S10000x128.Idx) := funext fun a => Fin.ext (by
    match a with
    | ⟨0, _⟩ => show win1_6.index t (0 : Fin 2) * 1000 + 1 * p.val = n.val; omega
    | ⟨1, _⟩ => show win1_6.index t (1 : Fin 2) * 128 + 1 * q.val = q.val; omega)
  show (k1_pay1 (F := Ideal) _ _ _ _ _ _ _ : S1000x128.Idx → EReal) (ix2 p q) = linG V dev (((cfg1.win 6).blk t).view.emb (ix2 p q))
  rw [eo]
  refine (pay_at _ _ _ _ _ _ _ p q).trans ?_
  show _ = (∑ k : Fin 128, hA V dev n k * w1A V dev k q)
      + (∑ k : Fin 128, Ideal.div (accA V dev 0 n k + accA V dev 1 n k) (max (degA V dev n) 1) * w2A V dev k q) + bA V dev q
  rw [blk2_at V dev t p 0 n hn, blk5_at V dev t 0 q]
  congr 1; congr 1
  · exact Finset.sum_congr rfl fun k _ => by rw [blk0_at V dev t p k n hn, blk3_at V dev t k q]
  · exact Finset.sum_congr rfl fun k _ => by
      rw [ld_half0, ld_half1, blk1_at V dev t 0 p k n hn, blk1_at V dev t 1 p k n hn, blk4_at V dev t k q]

/-- An index of the result array is in point t's block iff each coordinate is in the block's range on its axis. -/
theorem mem_blk (t : Fin cfg1.N) (i : S10000x128.Idx) :
    i ∈ ((cfg1.win 6).blk t).view.set ↔ ∀ a : Fin 2, win1_6.index t a * S1000x128.size a ≤ (i a).val ∧ (i a).val < win1_6.index t a * S1000x128.size a + S1000x128.size a := by
  show i ∈ ((View.whole main_v10).slice (win1_6.rect t)).set ↔ _
  rw [View.set_slice_whole, Rect.mem_set_unit]
  exact Iff.rfl

/-- Every row of the result array is in the block of the point its thousand names. -/
theorem cover (i : S10000x128.Idx) : ∃ t : Fin cfg1.N, (cfg1.win 6).flush t = true ∧ i ∈ ((cfg1.win 6).blk t).view.set := by
  have hi0 : (i 0).val < 10000 := (i 0).isLt
  have hi1 : (i 1).val < 128 := (i 1).isLt
  obtain ⟨t, ht⟩ : ∃ t : Fin cfg1.N, t.val = (i 0).val / 1000 := ⟨⟨(i 0).val / 1000, by rw [show cfg1.N = 10 from N_1]; omega⟩, rfl⟩
  obtain ⟨-, -, -, -, -, -, -, -, -, -, -, -, -, e0, e1⟩ := blk_index t
  refine ⟨t, flush1_6 t, ?_⟩
  rw [mem_blk]
  intro a
  match a with
  | ⟨0, _⟩ => show win1_6.index t (0 : Fin 2) * 1000 ≤ (i 0).val ∧ (i 0).val < win1_6.index t (0 : Fin 2) * 1000 + 1000; omega
  | ⟨1, _⟩ => show win1_6.index t (1 : Fin 2) * 128 ≤ (i 1).val ∧ (i 1).val < win1_6.index t (1 : Fin 2) * 128 + 128; omega

/-- The result array after the last point is the layer's row everywhere. -/
theorem final_eq (dev : Dev nD) : (dat1 V dev).arrAt 6 cfg1.N = linG V dev :=
  (dat1 V dev).arrAt_eq_of_cover 6 (linG V dev) (fun t _ => flushed_eq V dev t) cover

theorem lin_final (dev : Dev nD) (n : Fin 10000) (d : Fin 128) :
    ((dat1 V dev).arrAt 6 cfg1.N : S10000x128.Idx → EReal) (ix2 n d)
      = (∑ k : Fin 128, hA V dev n k * w1A V dev k d)
        + (∑ k : Fin 128, Ideal.div (accA V dev 0 n k + accA V dev 1 n k) (max (degA V dev n) 1) * w2A V dev k d)
        + bA V dev d := by
  rw [final_eq]
  rfl

end Cert.KernelIdeal.Lin

end
-- ==== Proof.KernelValue.lean ====
/- The kernel program's result, entry by entry, is the layer of the specification.
   The linear region leaves h · W₁ + ((acc₀ + acc₁) / max (deg, 1)) · W₂ + b of the arrays it finds; it finds the
   launched features, the weight matrix's two halves and the bias, the aggregation region's two collected sums
   acc₀, acc₁ (each the sum of all 1250 blocks of its half of the edges), and as degree the two halves' counts added
   from zero. The two halves' blocks are all the edges, once each, so acc₀ + acc₁ is the sum over all edges and the
   degree is the count over all edges. -/
import proofs.«422423_j81836306858014_3_alg».proof.Proof.KernelRun
import proofs.«422423_j81836306858014_3_alg».proof.Proof.HostReads
import proofs.«422423_j81836306858014_3_alg».proof.Proof.AggGrid
import proofs.«422423_j81836306858014_3_alg».proof.Proof.LinValue
import proofs.«422423_j81836306858014_3_alg».proof.Proof.SumLaws
import proofs.«422423_j81836306858014_3_alg».proof.Proof.MeanAggSpec

set_option maxRecDepth 16384

noncomputable section

namespace Cert.KernelIdeal.LayerValue

open Cert.KernelIdeal Cert.KernelIdeal.Gen Cert.KernelIdeal.HostValue Cert.MeanAgg
open Idealize.ShloMosaic Idealize.ShloMosaic.TcCoe Idealize.ShloMosaic.ValueIdx Idealize.SL.Sem

variable (m : (ℓ : Loc nD τ sig) → Buf (Elt Ideal) ℓ) (ρ : Dev nD → PrngReg)

/-- The launched arguments as plain functions: features, weights, bias, source ids, destination ids, edge weights. -/
def hM (c : Dev nD) : Fin 10000 → Fin 128 → EReal := fun n d => (m ((c : Thread nD τ).loc main_arg0) : S10000x128.Idx → EReal) (ix2 n d)
def WM (c : Dev nD) : Fin 256 → Fin 128 → EReal := fun k d => (m ((c : Thread nD τ).loc main_arg2) : S256x128.Idx → EReal) (ix2 k d)
def bM (c : Dev nD) : Fin 128 → EReal := fun d => (m ((c : Thread nD τ).loc main_arg3) : S128.Idx → EReal) (ix1 d)
def srcM (c : Dev nD) : Fin 640000 → BitVec 32 := fun e => (m ((c : Thread nD τ).loc main_arg4) : S640000.Idx → BitVec 32) (ix1 e)
def dstM (c : Dev nD) : Fin 640000 → BitVec 32 := fun e => (m ((c : Thread nD τ).loc main_arg5) : S640000.Idx → BitVec 32) (ix1 e)
def wM (c : Dev nD) : Fin 640000 → EReal := fun e => (m ((c : Thread nD τ).loc main_arg1) : S640000x1.Idx → EReal) (ix2 e 0)

/-- The aggregation region stages the launched features. -/
theorem hOf_eq (c : Dev nD) : Agg.hOf (V1 m ρ) c = hM m c := by
  funext n d
  unfold Agg.hOf hM
  rw [V1_v0 m ρ c]

/-- The two collected sums, added, are the sum over all edges. -/
theorem acc_sum (c : Dev nD) (n : Fin 10000) (k : Fin 128) :
    Lin.accA (V3 m ρ) c 0 n k + Lin.accA (V3 m ρ) c 1 n k = hsumF (hM m c) (srcM m c) (dstM m c) (wM m c) n k := by
  have e : ∀ cc : Fin 2, Lin.accA (V3 m ρ) c cc n k
      = accC (hM m c) (Agg.srcOf (V1 m ρ) c) (Agg.dstOf (V1 m ρ) c) (Agg.wOf (V1 m ρ) c) cc 1250 n k := fun cc => by
    unfold Lin.accA
    rw [V3_v4_0 m ρ c, Agg.acc_final (V1 m ρ) c cc n k, hOf_eq m ρ c]
  rw [e 0, e 1]
  exact acc_halves (hM m c) (Agg.srcOf (V1 m ρ) c) (Agg.dstOf (V1 m ρ) c) (Agg.wOf (V1 m ρ) c) (srcM m c) (dstM m c) (wM m c)
    (fun cc r => V1_v1_apply m ρ c cc r) (fun cc r => V1_v2_apply m ρ c cc r) (fun cc r => V1_v3_apply m ρ c cc r) n k

/-- The degree column is the count over all edges. -/
theorem deg_sum (c : Dev nD) (n : Fin 10000) : Lin.degA (V3 m ρ) c n = degF (dstM m c) n := by
  unfold Lin.degA
  rw [V3_v6_apply m ρ c n, zero_add]
  have e : ∀ cc : Fin 2, degRow m ρ c cc n = degC (Agg.dstOf (V1 m ρ) c) cc 1250 n := fun cc => by
    unfold degRow
    exact Agg.deg_final (V1 m ρ) c cc n
  rw [e 0, e 1]
  exact deg_halves (Agg.dstOf (V1 m ρ) c) (dstM m c) (fun cc r => V1_v2_apply m ρ c cc r) n

/-- THE KERNEL'S RESULT at entry (n, d). -/
theorem result_apply (c : Dev nD) (n : Fin 10000) (d : Fin 128) :
    (W4 m ρ c (Proc.devRef .tc main_v10) : S10000x128.Idx → EReal) (ix2 n d)
      = out (hM m c) (WM m c) (bM m c) (srcM m c) (dstM m c) (wM m c) n d := by
  rw [show W4 m ρ c (Proc.devRef .tc main_v10) = (dat1 (V3 m ρ) c).arrAt 6 cfg1.N from W4_arr m ρ c 6]
  rw [Lin.lin_final (V3 m ρ) c n d]
  unfold out outOf
  have e1 : ∀ k : Fin 128, Lin.hA (V3 m ρ) c n k * Lin.w1A (V3 m ρ) c k d = hM m c n k * WM m c (lo k) d := fun k => by
    unfold Lin.hA Lin.w1A hM WM
    rw [V3_arg0 m ρ c, V3_v7_apply m ρ c k d]
  have e2 : ∀ k : Fin 128,
      Ideal.div (Lin.accA (V3 m ρ) c 0 n k + Lin.accA (V3 m ρ) c 1 n k) (max (Lin.degA (V3 m ρ) c n) 1) * Lin.w2A (V3 m ρ) c k d
        = Ideal.div (hsumF (hM m c) (srcM m c) (dstM m c) (wM m c) n k) (max (degF (dstM m c) n) 1) * WM m c (hi k) d := fun k => by
    rw [acc_sum m ρ c n k, deg_sum m ρ c n]
    unfold Lin.w2A WM
    rw [V3_v8_apply m ρ c k d]
  have e3 : Lin.bA (V3 m ρ) c d = bM m c d := by
    unfold Lin.bA bM
    exact V3_v9_apply m ρ c d
  rw [Finset.sum_congr rfl (fun k _ => e1 k), Finset.sum_congr rfl (fun k _ => e2 k), e3]

end Cert.KernelIdeal.LayerValue

end
-- ==== Proof.RefValue.lean ====
/- The reference's result read at an entry. With every source id a node's id, its gather reads that node's row; its
   two scatter-adds from zero are the sums, over the edges whose destination id is the entry's node, of the messages and
   of ones (an edge whose destination names no node lands nowhere); the concatenation's product with the weight matrix
   is the two half-products. So the result is the layer of the specification. -/
import proofs.«422423_j81836306858014_3_alg».proof.Proof.Gen.ReferenceIdeal.Run
import proofs.«422423_j81836306858014_3_alg».proof.Proof.Gen.ReferenceIdeal.Read
import proofs.«422423_j81836306858014_3_alg».proof.Proof.MeanAggSpec
import proofs.«422423_j81836306858014_3_alg».proof.Proof.SumLaws
import proofs.«422423_j81836306858014_3_alg».proof.Proof.Consts
import Idealize.ShloMosaic.PureOps.Ideal.Laws
import Idealize.ShloMosaic.Lib.ValueIdx
import Idealize.ShloMosaic.Lib.Pipeline.Value
import Idealize.ShloMosaic.Lib.StableHlo.Predicate

set_option maxRecDepth 16384

noncomputable section

namespace Cert.ReferenceIdeal.RefValue

open Cert.ReferenceIdeal Cert.ReferenceIdeal.Gen Cert.MeanAgg
open Idealize.ShloMosaic Idealize.ShloMosaic.ValueIdx

/-! ## Words -/

/-- A node's id read as a signed integer is the node's number. -/
theorem node_toInt (n : Fin 10000) : (node n).toInt = (n.val : Int) :=
  StableHlo.Predicate.toInt_ofNat_small n.val (by have := n.isLt; omega)

/-- Distinct nodes have distinct ids. -/
theorem node_inj {n m : Fin 10000} (h : node n = node m) : n = m := by
  have h1 := congrArg BitVec.toInt h
  rw [node_toInt, node_toInt] at h1
  exact Fin.ext (by omega)

/-- A word whose signed reading is a node's number is that node's id. -/
theorem eq_node_of_toInt {w : BitVec 32} {n : Fin 10000} (h : w.toInt = (n.val : Int)) : w = node n :=
  BitVec.eq_of_toInt_eq (h.trans (node_toInt n).symm)

/-- A node's id is not negative as a signed word. -/
theorem slt_node_zero (n : Fin 10000) : IntOp.cmpi .slt (node n) 0#32 = 0#1 := by
  apply eq_zero_of_ne_one
  intro h
  have := (StableHlo.Predicate.slt_ofNat_iff n.val 0 (by have := n.isLt; omega) (by decide)).mp h
  omega

/-! ## Where a scattered update lands -/

/-- An update lands at an index exactly when, on every axis, its start plus its window coordinate is the index's
    coordinate. -/
theorem resultIdx?_eq_some_iff {s si u : Shape} (D : ScatterDims s si u) {w : Nat} (j : u.Idx) (idx : IVec si w) (i : s.Idx) :
    D.resultIdx? j idx = some i ↔ ∀ a, D.start j idx a + (D.window j a : Int) = ((i a).val : Int) := by
  unfold ScatterDims.resultIdx?
  constructor
  · intro h a
    split at h
    · next hc =>
      have e := congrFun (Option.some.inj h) a
      have e' := congrArg Fin.val e
      simp only at e'
      have := (hc a).1
      omega
    · exact absurd h (by simp)
  · intro h
    have hc : ∀ a, 0 ≤ D.start j idx a + (D.window j a : Int) ∧ D.start j idx a + (D.window j a : Int) < s.size a := by
      intro a
      have := h a
      have := (i a).isLt
      omega
    rw [dif_pos hc]
    congr 1
    funext a
    apply Fin.ext
    have := h a
    simp only
    omega

/-! ## The source ids as the gather meets them -/

/-- A source id that is a node's id is left as it is by the normalisation of negative ids. -/
theorem src_norm (x4 : IVec S640000 32) (e : Fin 640000) (n : Fin 10000) (h : x4 (ix1 e) = node n) :
    Read.val_main_v5 (F := Ideal) x4 (ix2 e 0) = node n := by
  have ei : Read.idx_main_v5 (ix2 e (0 : Fin 1)) = ix1 e := funext fun a => Fin.ext (by match a with | ⟨0, _⟩ => rfl)
  rw [Read.val_main_v5_apply, ei, Read.val_main_v4_apply, Read.val_main_v1_apply, Read.val_main_v0_apply, Read.val_main_c_apply,
    h, slt_node_zero, select_zero]

/-! ## The gather of rows -/

/-- On the row axis the gather reads the start word, signed and clamped into the table's rows. -/
theorem gather_axis0 (idx : IVec S640000x1 32) (e : Fin 640000) (d : Fin 128) :
    (gather_S10000x128_S640000x1_S640000x128_1_0_n_n_0_1_1128.operandIdx (ix2 e d) idx 0).val
      = min (idx (ix2 e 0)).toInt.toNat 9999 := by
  show gather_S10000x128_S640000x1_S640000x128_1_0_n_n_0_1_1128.start (ix2 e d) idx 0
      + gather_S10000x128_S640000x1_S640000x128_1_0_n_n_0_1_1128.batchCoord (ix2 e d) 0
      + gather_S10000x128_S640000x1_S640000x128_1_0_n_n_0_1_1128.offCoord (ix2 e d) 0 = _
  rw [GatherDims.batchCoord_eq_zero _ _ _ (by decide), GatherDims.offCoord_eq_zero _ _ _ (by decide)]
  unfold GatherDims.start
  rw [dif_pos (by decide)]
  have hsi : gather_S10000x128_S640000x1_S640000x128_1_0_n_n_0_1_1128.siIdx (ix2 e d)
      ⟨List.idxOf (0 : Fin S10000x128.rank) gather_S10000x128_S640000x1_S640000x128_1_0_n_n_0_1_1128.startIndexMap,
        List.idxOf_lt_length_iff.2 (by decide)⟩ = ix2 e 0 := by
    funext b; refine Fin.ext ?_
    match b with
    | ⟨0, _⟩ => rfl
    | ⟨1, _⟩ => rfl
  rw [hsi]
  rfl

/-- On the column axis the gather reads the result's own column. -/
theorem gather_axis1 (idx : IVec S640000x1 32) (e : Fin 640000) (d : Fin 128) :
    (gather_S10000x128_S640000x1_S640000x128_1_0_n_n_0_1_1128.operandIdx (ix2 e d) idx 1).val = d.val := by
  show gather_S10000x128_S640000x1_S640000x128_1_0_n_n_0_1_1128.start (ix2 e d) idx 1
      + gather_S10000x128_S640000x1_S640000x128_1_0_n_n_0_1_1128.batchCoord (ix2 e d) 1
      + gather_S10000x128_S640000x1_S640000x128_1_0_n_n_0_1_1128.offCoord (ix2 e d) 1 = _
  rw [GatherDims.batchCoord_eq_zero _ _ _ (by decide)]
  unfold GatherDims.start GatherDims.offCoord
  rw [dif_neg (by decide), dif_pos (by decide)]
  simp only [Nat.zero_add]
  rfl

/-- The gather at a start index that is node n's id reads row n. -/
theorem gather_row {α : Type} (x : S10000x128.Idx → α) (idx : IVec S640000x1 32) (e : Fin 640000) (d : Fin 128)
    (n : Fin 10000) (h : idx (ix2 e 0) = node n) :
    Host.gather gather_S10000x128_S640000x1_S640000x128_1_0_n_n_0_1_1128 x idx (ix2 e d) = x (ix2 n d) := by
  unfold Host.gather
  congr 1
  funext a
  refine Fin.ext ?_
  match a with
  | ⟨0, _⟩ =>
    refine (gather_axis0 idx e d).trans ?_
    rw [h, node_toInt]
    have := n.isLt
    show min (n.val : Int).toNat 9999 = n.val
    omega
  | ⟨1, _⟩ => exact gather_axis1 idx e d

/-! ## The scatter of rows: where update (e, d') lands -/

/-- On the row axis the window starts at edge e's index word, read signed. -/
theorem rows_start0 (idx : IVec S640000x1 32) (e : Fin 640000) (d' : Fin 128) :
    scatter_S10000x128_S640000x1_S640000x128_1_0_0_1.start (ix2 e d') idx 0 = (idx (ix2 e 0)).toInt := by
  unfold ScatterDims.start
  rw [dif_pos (by decide)]
  have hsi : scatter_S10000x128_S640000x1_S640000x128_1_0_0_1.siIdx (ix2 e d')
      ⟨List.idxOf (0 : Fin S10000x128.rank) scatter_S10000x128_S640000x1_S640000x128_1_0_0_1.scatterDimsToOperandDims,
        List.idxOf_lt_length_iff.2 (by decide)⟩ = ix2 e 0 := by
    funext b; refine Fin.ext ?_
    match b with
    | ⟨0, _⟩ => rfl
    | ⟨1, _⟩ => rfl
  rw [hsi]

/-- On the column axis the window starts at 0. -/
theorem rows_start1 (idx : IVec S640000x1 32) (e : Fin 640000) (d' : Fin 128) :
    scatter_S10000x128_S640000x1_S640000x128_1_0_0_1.start (ix2 e d') idx 1 = 0 := by
  unfold ScatterDims.start
  rw [dif_neg (by decide)]

/-- The row axis is inserted: no window coordinate there. -/
theorem rows_window0 (e : Fin 640000) (d' : Fin 128) :
    scatter_S10000x128_S640000x1_S640000x128_1_0_0_1.window (ix2 e d') 0 = 0 := by
  unfold ScatterDims.window
  rw [dif_neg (by decide)]

/-- The column axis carries the update's column. -/
theorem rows_window1 (e : Fin 640000) (d' : Fin 128) :
    scatter_S10000x128_S640000x1_S640000x128_1_0_0_1.window (ix2 e d') 1 = d'.val := by
  unfold ScatterDims.window
  rw [dif_pos (by decide)]
  rfl

/-- Update (e, d') lands at (n, d) exactly when edge e's index word is node n's id and d' = d. -/
theorem rows_lands (idx : IVec S640000x1 32) (e : Fin 640000) (d' : Fin 128) (n : Fin 10000) (d : Fin 128) :
    scatter_S10000x128_S640000x1_S640000x128_1_0_0_1.resultIdx? (ix2 e d') idx = some (ix2 n d)
      ↔ idx (ix2 e 0) = node n ∧ d' = d := by
  rw [resultIdx?_eq_some_iff]
  constructor
  · intro h
    have h0 : scatter_S10000x128_S640000x1_S640000x128_1_0_0_1.start (ix2 e d') idx 0
        + (scatter_S10000x128_S640000x1_S640000x128_1_0_0_1.window (ix2 e d') 0 : Int) = (n.val : Int) := h 0
    have h1 : scatter_S10000x128_S640000x1_S640000x128_1_0_0_1.start (ix2 e d') idx 1
        + (scatter_S10000x128_S640000x1_S640000x128_1_0_0_1.window (ix2 e d') 1 : Int) = (d.val : Int) := h 1
    rw [rows_start0, rows_window0] at h0
    rw [rows_start1, rows_window1] at h1
    exact ⟨eq_node_of_toInt (by omega), Fin.ext (by omega)⟩
  · rintro ⟨hw, rfl⟩ a
    match a with
    | ⟨0, _⟩ =>
      show scatter_S10000x128_S640000x1_S640000x128_1_0_0_1.start (ix2 e d') idx 0
        + (scatter_S10000x128_S640000x1_S640000x128_1_0_0_1.window (ix2 e d') 0 : Int) = (n.val : Int)
      rw [rows_start0, rows_window0, hw, node_toInt]
      omega
    | ⟨1, _⟩ =>
      show scatter_S10000x128_S640000x1_S640000x128_1_0_0_1.start (ix2 e d') idx 1
        + (scatter_S10000x128_S640000x1_S640000x128_1_0_0_1.window (ix2 e d') 1 : Int) = (d'.val : Int)
      rw [rows_start1, rows_window1]
      omega

/-- The scatter-add of rows at (n, d): the operand's entry plus the updates (e, d) of the edges e whose index word is
    node n's id. -/
theorem scatter_rows_apply (x : FVec Ideal S10000x128 .f32) (idx : IVec S640000x1 32) (upd : FVec Ideal S640000x128 .f32)
    (n : Fin 10000) (d : Fin 128) :
    Host.scatterAdd (F := Ideal) scatter_S10000x128_S640000x1_S640000x128_1_0_0_1 x idx upd (ix2 n d)
      = x (ix2 n d) + ∑ e : Fin 640000, if idx (ix2 e 0) = node n then upd (ix2 e d) else 0 := by
  show Ideal.hostScatterAdd scatter_S10000x128_S640000x1_S640000x128_1_0_0_1 x idx upd (ix2 n d) = _
  unfold Ideal.hostScatterAdd
  refine congrArg (fun t => x (ix2 n d) + t) ?_
  rw [Finset.sum_filter, sum_idx2]
  refine Finset.sum_congr rfl fun e _ => ?_
  by_cases hw : idx (ix2 e 0) = node n
  · rw [if_pos hw, Finset.sum_eq_single d]
    · rw [if_pos ((rows_lands idx e d n d).mpr ⟨hw, rfl⟩)]
    · intro d' _ hne
      rw [if_neg (fun h => hne ((rows_lands idx e d' n d).mp h).2)]
    · intro h
      exact absurd (Finset.mem_univ d) h
  · rw [if_neg hw]
    refine Finset.sum_eq_zero fun d' _ => ?_
    rw [if_neg (fun h => hw ((rows_lands idx e d' n d).mp h).1)]

/-! ## The scatter of ones: where update e lands -/

/-- A rank-1 index set is its coordinate's range, so a sum over it is the sum over the coordinate. -/
def idxEquiv1 {n : Nat} : (⟨1, ![n]⟩ : Shape).Idx ≃ Fin n where
  toFun i := i 0
  invFun := ix1
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The one axis's window starts at edge e's index word, read signed. -/
theorem ones_start0 (idx : IVec S640000x1 32) (e : Fin 640000) :
    scatter_S10000_S640000x1_S640000_n_0_0_1.start (ix1 e) idx 0 = (idx (ix2 e 0)).toInt := by
  unfold ScatterDims.start
  rw [dif_pos (by decide)]
  have hsi : scatter_S10000_S640000x1_S640000_n_0_0_1.siIdx (ix1 e)
      ⟨List.idxOf (0 : Fin S10000.rank) scatter_S10000_S640000x1_S640000_n_0_0_1.scatterDimsToOperandDims,
        List.idxOf_lt_length_iff.2 (by decide)⟩ = ix2 e 0 := by
    funext b; refine Fin.ext ?_
    match b with
    | ⟨0, _⟩ => rfl
    | ⟨1, _⟩ => rfl
  rw [hsi]

/-- The one axis is inserted: no window coordinate there. -/
theorem ones_window0 (e : Fin 640000) :
    scatter_S10000_S640000x1_S640000_n_0_0_1.window (ix1 e) 0 = 0 := by
  unfold ScatterDims.window
  rw [dif_neg (by decide)]

/-- Update e lands at n exactly when edge e's index word is node n's id. -/
theorem ones_lands (idx : IVec S640000x1 32) (e : Fin 640000) (n : Fin 10000) :
    scatter_S10000_S640000x1_S640000_n_0_0_1.resultIdx? (ix1 e) idx = some (ix1 n) ↔ idx (ix2 e 0) = node n := by
  rw [resultIdx?_eq_some_iff]
  constructor
  · intro h
    have h0 : scatter_S10000_S640000x1_S640000_n_0_0_1.start (ix1 e) idx 0
        + (scatter_S10000_S640000x1_S640000_n_0_0_1.window (ix1 e) 0 : Int) = (n.val : Int) := h 0
    rw [ones_start0, ones_window0] at h0
    exact eq_node_of_toInt (by omega)
  · intro hw a
    match a with
    | ⟨0, _⟩ =>
      show scatter_S10000_S640000x1_S640000_n_0_0_1.start (ix1 e) idx 0
        + (scatter_S10000_S640000x1_S640000_n_0_0_1.window (ix1 e) 0 : Int) = (n.val : Int)
      rw [ones_start0, ones_window0, hw, node_toInt]
      omega

/-- The scatter-add of scalars at n: the operand's entry plus the updates of the edges whose index word is node n's
    id. -/
theorem scatter_ones_apply (x : FVec Ideal S10000 .f32) (idx : IVec S640000x1 32) (upd : FVec Ideal S640000 .f32)
    (n : Fin 10000) :
    Host.scatterAdd (F := Ideal) scatter_S10000_S640000x1_S640000_n_0_0_1 x idx upd (ix1 n)
      = x (ix1 n) + ∑ e : Fin 640000, if idx (ix2 e 0) = node n then upd (ix1 e) else 0 := by
  show Ideal.hostScatterAdd scatter_S10000_S640000x1_S640000_n_0_0_1 x idx upd (ix1 n) = _
  unfold Ideal.hostScatterAdd
  refine congrArg (fun t => x (ix1 n) + t) ?_
  rw [Finset.sum_filter, sum_idx1]
  refine Finset.sum_congr rfl fun e _ => ?_
  by_cases hw : idx (ix2 e 0) = node n
  · rw [if_pos hw, if_pos ((ones_lands idx e n).mpr hw)]
  · rw [if_neg hw, if_neg (fun h => hw ((ones_lands idx e n).mp h))]

/-! ## The concatenation along the columns -/

/-- Column k of the first piece. -/
theorem concat_lo {α : Type} (a b : S10000x128.Idx → α) (n : Fin 10000) (k : Fin 128) :
    concatenate S10000x256 1 [⟨S10000x128, a⟩, ⟨S10000x128, b⟩] concatenates_S10000x128_S10000x128_S10000x256_d1
      (ix2 n (lo k)) = a (ix2 n k) := by
  refine concatenate_pair_apply_left 1 a b _ (ix2 n (lo k)) rfl (ix2 n k) (fun c => ?_)
  match c with
  | ⟨0, _⟩ => rfl
  | ⟨1, _⟩ => rfl

/-- Column 128 + k is column k of the second piece. -/
theorem concat_hi {α : Type} (a b : S10000x128.Idx → α) (n : Fin 10000) (k : Fin 128) :
    concatenate S10000x256 1 [⟨S10000x128, a⟩, ⟨S10000x128, b⟩] concatenates_S10000x128_S10000x128_S10000x256_d1
      (ix2 n (hi k)) = b (ix2 n k) := by
  refine concatenate_pair_apply_right 1 a b _ (ix2 n (hi k)) rfl rfl (ix2 n k) (fun c hc => ?_) ?_
  · match c with
    | ⟨0, _⟩ => rfl
    | ⟨1, _⟩ => exact absurd rfl hc
  · show k.val + 128 = 128 + k.val
    omega

/-! ## The stages at an entry -/

section Stages

variable (x0 : FVec Ideal S10000x128 .f32) (x1 : FVec Ideal S640000x1 .f32) (x2 : FVec Ideal S256x128 .f32)
  (x3 : FVec Ideal S128 .f32) (x4 x5 : IVec S640000 32)

/-- The scaled gathered row of edge e is the edge's message. -/
theorem msg_apply (hsrc : ∀ e : Fin 640000, ∃ n : Fin 10000, x4 (ix1 e) = node n) (e : Fin 640000) (k : Fin 128) :
    Read.val_main_v8 (F := Ideal) x0 x1 x4 (ix2 e k)
      = msgF (fun n d => x0 (ix2 n d)) (fun e => x4 (ix1 e)) (fun e => x1 (ix2 e 0)) e k := by
  obtain ⟨m, hm⟩ := hsrc e
  have e7 : Read.idx_main_v7 (ix2 e k) = ix2 e (0 : Fin 1) :=
    funext fun a => Fin.ext (by match a with | ⟨0, _⟩ => rfl | ⟨1, _⟩ => rfl)
  rw [Read.val_main_v8_apply, Read.val_main_v7_apply, e7, Ideal.mulf_def]
  unfold Read.val_main_v6 msgF
  rw [gather_row x0 (Read.val_main_v5 (F := Ideal) x4) e k m (src_norm x4 e m hm)]
  refine congrArg (fun t => t * x1 (ix2 e 0)) ?_
  show x0 (ix2 m k) = ∑ n : Fin 10000, if x4 (ix1 e) = node n then x0 (ix2 n k) else 0
  rw [hm, Finset.sum_eq_single m]
  · rw [if_pos rfl]
  · intro n' _ hne
    rw [if_neg (fun h => hne (node_inj h).symm)]
  · intro h
    exact absurd (Finset.mem_univ m) h

/-- The scatter-add of the messages from zero is what each node collects. -/
theorem hsum_apply (hsrc : ∀ e : Fin 640000, ∃ n : Fin 10000, x4 (ix1 e) = node n) (n : Fin 10000) (k : Fin 128) :
    Read.val_main_v11 (F := Ideal) x0 x1 x4 x5 (ix2 n k)
      = hsumF (fun n d => x0 (ix2 n d)) (fun e => x4 (ix1 e)) (fun e => x5 (ix1 e)) (fun e => x1 (ix2 e 0)) n k := by
  have e10 : ∀ e : Fin 640000, Read.idx_main_v10 (ix2 e (0 : Fin 1)) = ix1 e :=
    fun e => funext fun a => Fin.ext (by match a with | ⟨0, _⟩ => rfl)
  unfold Read.val_main_v11 hsumF
  rw [scatter_rows_apply, Read.val_main_v9_apply, Read.val_main_cst_apply, Ideal.ofBits_def, Ideal.ofBits_zero_f32, zero_add]
  refine Finset.sum_congr rfl fun e _ => ?_
  rw [Read.val_main_v10_apply, e10, msg_apply x0 x1 x4 hsrc e k]

/-- The scatter-add of ones from zero is each node's in-degree. -/
theorem deg_apply (n : Fin 10000) :
    Read.val_main_v15 (F := Ideal) x5 (ix1 n) = degF (fun e => x5 (ix1 e)) n := by
  have e14 : ∀ e : Fin 640000, Read.idx_main_v14 (ix2 e (0 : Fin 1)) = ix1 e :=
    fun e => funext fun a => Fin.ext (by match a with | ⟨0, _⟩ => rfl)
  unfold Read.val_main_v15 degF
  rw [scatter_ones_apply, Read.val_main_v13_apply, Read.val_main_cst_2_apply, Ideal.ofBits_def, Ideal.ofBits_zero_f32, zero_add]
  refine Finset.sum_congr rfl fun e _ => ?_
  rw [Read.val_main_v14_apply, e14, Read.val_main_v12_apply, Read.val_main_cst_1_apply, Ideal.ofBits_def,
    Cert.Consts.ofBits_f32_one]

/-- The divisor at (n, k): the larger of node n's in-degree and one. -/
theorem denom_apply (n : Fin 10000) (k : Fin 128) :
    Read.val_main_v19 (F := Ideal) x5 (ix2 n k) = max (degF (fun e => x5 (ix1 e)) n) 1 := by
  have e19 : Read.idx_main_v18 (Read.idx_main_v19 (ix2 n k)) = ix1 n :=
    funext fun a => Fin.ext (by match a with | ⟨0, _⟩ => rfl)
  rw [Read.val_main_v19_apply, Read.val_main_v18_apply, e19, Read.val_main_v17_apply, Ideal.maximumf_def, deg_apply,
    Read.val_main_v16_apply, Read.val_main_cst_3_apply, Ideal.ofBits_def, Cert.Consts.ofBits_f32_one]

/-- The neighbourhood mean at (n, k). -/
theorem mean_apply (hsrc : ∀ e : Fin 640000, ∃ n : Fin 10000, x4 (ix1 e) = node n) (n : Fin 10000) (k : Fin 128) :
    Read.val_main_v20 (F := Ideal) x0 x1 x4 x5 (ix2 n k)
      = Ideal.div (hsumF (fun n d => x0 (ix2 n d)) (fun e => x4 (ix1 e)) (fun e => x5 (ix1 e)) (fun e => x1 (ix2 e 0)) n k)
          (max (degF (fun e => x5 (ix1 e)) n) 1) := by
  rw [Read.val_main_v20_apply, Ideal.hostDivf_def, hsum_apply x0 x1 x4 x5 hsrc, denom_apply]

end Stages

theorem result_apply (x0 : FVec Ideal S10000x128 .f32) (x1 : FVec Ideal S640000x1 .f32) (x2 : FVec Ideal S256x128 .f32)
    (x3 : FVec Ideal S128 .f32) (x4 x5 : IVec S640000 32)
    (hsrc : ∀ e : Fin 640000, ∃ n : Fin 10000, x4 (ix1 e) = node n) (n : Fin 10000) (d : Fin 128) :
    Cert.ReferenceIdeal.Read.val_main_v25 (F := Ideal) x0 x1 x2 x3 x4 x5 (ix2 n d)
      = out (fun n d => x0 (ix2 n d)) (fun k d => x2 (ix2 k d)) (fun d => x3 (ix1 d))
          (fun e => x4 (ix1 e)) (fun e => x5 (ix1 e)) (fun e => x1 (ix2 e 0)) n d := by
  have el : ∀ k : Fin 256, Read.lidx_main_v22 (ix2 n d) k = ix2 n k :=
    fun k => funext fun a => Fin.ext (by match a with | ⟨0, _⟩ => rfl | ⟨1, _⟩ => rfl)
  have er : ∀ k : Fin 256, Read.ridx_main_v22 (ix2 n d) k = ix2 k d :=
    fun k => funext fun a => Fin.ext (by match a with | ⟨0, _⟩ => rfl | ⟨1, _⟩ => rfl)
  have eb : Read.idx_main_v23 (Read.idx_main_v24 (ix2 n d)) = ix1 d :=
    funext fun a => Fin.ext (by match a with | ⟨0, _⟩ => rfl)
  rw [Read.val_main_v25_apply, Read.val_main_v22_apply, Read.val_main_v24_apply, Read.val_main_v23_apply, eb,
    Ideal.addf_def, sum_256_split]
  unfold out outOf
  refine congrArg (fun t => t + x3 (ix1 d)) ?_
  refine congrArg₂ (fun s t => s + t) (Finset.sum_congr rfl fun k _ => ?_) (Finset.sum_congr rfl fun k _ => ?_)
  · rw [el, er]
    unfold Read.val_main_v21
    rw [concat_lo]
  · rw [el, er]
    unfold Read.val_main_v21
    rw [concat_hi, mean_apply x0 x1 x4 x5 hsrc]

end Cert.ReferenceIdeal.RefValue

end
-- ==== Proof.PreRange.lean ====
/- The precondition read at an edge. Beside the finiteness of the float inputs it says of every source id that, as a
   signed 32-bit number, it is at least 0 and below 10000: such a word is the id of one of the 10000 nodes. -/
import proofs.«422423_j81836306858014_3_alg».proof.Pre_finite_inputs
import proofs.«422423_j81836306858014_3_alg».proof.Proof.Gen.Pre_finite_inputs
import proofs.«422423_j81836306858014_3_alg».proof.Proof.MeanAggSpec
import Idealize.ShloMosaic.Lib.ReduceAll
import Idealize.ShloMosaic.Lib.Affine
import Idealize.ShloMosaic.Lib.ValueIdx

noncomputable section

namespace Cert.PreRange

open Idealize.ShloMosaic Idealize.ShloMosaic.ValueIdx Cert.MeanAgg Cert.Pre_finite_inputs

/-- A result without axes has one index. -/
instance : Subsingleton S_.Idx := ⟨fun a b => funext fun d => d.elim0⟩

/-- A word in [0, 10000) as a signed number is a node's id. -/
theorem word_is_node (w : BitVec 32) (h0 : IntOp.cmpi .sge w 0#32 = 1#1) (h1 : IntOp.cmpi .slt w 10000#32 = 1#1) :
    ∃ n : Fin 10000, w = node n := by
  rw [IntOp.cmpi_sge] at h0
  rw [IntOp.cmpi_slt] at h1
  have z : (0#32 : BitVec 32).toInt = 0 := by decide
  have t : (10000#32 : BitVec 32).toInt = 10000 := by decide
  rw [z] at h0
  rw [t] at h1
  have hb := w.isLt
  rw [BitVec.toInt_eq_toNat_cond] at h0 h1
  have hlt : w.toNat < 10000 := by
    split at h0 <;> split at h1 <;> omega
  exact ⟨⟨w.toNat, hlt⟩, BitVec.eq_of_toNat_eq (by
    show w.toNat = (BitVec.ofNat 32 w.toNat).toNat
    rw [BitVec.toNat_ofNat]
    exact (Nat.mod_eq_of_lt hb).symm)⟩

/-- Under the precondition every source id is a node's id. -/
theorem src_is_node (x0 : FVec Ideal S10000x128 .f32) (x1 : FVec Ideal S640000x1 .f32) (x2 : FVec Ideal S256x128 .f32)
    (x3 : FVec Ideal S128 .f32) (x4 x5 : IVec S640000 32)
    (h : fn (F := Ideal) x0 x1 x2 x3 x4 x5 = fun _ => 1#1) (e : Fin 640000) :
    ∃ n : Fin 10000, x4 (ix1 e) = node n := by
  have h0 := congrFun h ix0
  dsimp only [fn, fn_part1] at h0
  obtain ⟨h22, h25⟩ := IntOp.andi_eq_one.mp h0
  obtain ⟨-, h21⟩ := IntOp.andi_eq_one.mp h22
  exact word_is_node _ (Host.reduce_andi_all _ _ _ _ ix0 h21 (ix1 e)) (Host.reduce_andi_all _ _ _ _ ix0 h25 (ix1 e))

end Cert.PreRange

end
-- ==== Proof.lean ====
/- The weighted-mean aggregation layer: the kernel program and its reference compute the same function over the
   extended reals, given that every source id names a node.

   Both compute, for node n, h n · W₁ + mean n · W₂ + b, where mean n is the sum of the messages h[src e] · w e over the
   edges with dst e = n, divided by the larger of their number and one. The kernel finds a message's source row and
   its destination row by indicator matrices (an id compared with every node id) contracted on the matrix unit, in
   blocks of 256 edges, two halves of the edges accumulated apart and added at the end; the reference gathers the
   source rows and scatter-adds the messages. An edge whose destination names no node adds to nothing on either side
   (an indicator row of zeros; a scatter landing outside). A source id that names no node gives an indicator row of
   zeros in the kernel but a clamped row in the reference's gather: the precondition keeps source ids to node ids,
   where the indicator sum picks exactly the gathered row. The sums agree by associativity and commutativity of
   addition alone (the blocks are all the edges, once each; 256 weight rows are the upper and the lower 128), so the
   finiteness of the float inputs is never used.

   The three frame claims are the generated frame certificates (the reference's is its generated run with the result
   dropped); the idealization rewrote nothing, so there is nothing to preserve. -/
import proofs.«422423_j81836306858014_3_alg».proof.Defs
import proofs.«422423_j81836306858014_3_alg».proof.Proof.Gen.Kernel
import proofs.«422423_j81836306858014_3_alg».proof.Proof.Gen.Kernel.Frame
import proofs.«422423_j81836306858014_3_alg».proof.Proof.Gen.KernelIdeal
import proofs.«422423_j81836306858014_3_alg».proof.Proof.Gen.KernelIdeal.Frame
import proofs.«422423_j81836306858014_3_alg».proof.Proof.Gen.ReferenceIdeal
import proofs.«422423_j81836306858014_3_alg».proof.Proof.Gen.ReferenceIdeal.Run
import proofs.«422423_j81836306858014_3_alg».proof.Proof.Gen.ReferenceIdeal.Read
import proofs.«422423_j81836306858014_3_alg».proof.Proof.Gen.Pre_finite_inputs
import proofs.«422423_j81836306858014_3_alg».proof.Proof.KernelRun
import proofs.«422423_j81836306858014_3_alg».proof.Proof.KernelValue
import proofs.«422423_j81836306858014_3_alg».proof.Proof.RefValue
import proofs.«422423_j81836306858014_3_alg».proof.Proof.PreRange
import Idealize.ShloMosaic.Adequacy
import Idealize.ShloMosaic.Init

set_option maxRecDepth 16384

noncomputable section

namespace Cert.Proof

open Idealize.ShloMosaic Idealize.ShloMosaic.ValueIdx Idealize.SL.Sem Cert.MeanAgg

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the layer of the launched arguments in their result arrays. -/
theorem algebraic : Cert.algebraic_KernelIdeal_ReferenceIdeal := by
  intro m ρ m' ρ' hpre hagree
  open Cert.KernelIdeal.LayerValue in
  refine ⟨fun c => fun i => out (hM m c) (WM m c) (bM m c) (srcM m c) (dstM m c) (wM m c) (i 0) (i 1), ?_, ?_⟩
  · refine (θ_run Cert.KernelIdeal.defs _ _).mono (fun _ h c => ⟨(h c).1.trans ?_, (h c).2⟩)
      (Cert.KernelIdeal.RunValue.run_result (F := Ideal) m ρ)
    funext i
    rw [eq_ix2 i]
    exact Cert.KernelIdeal.LayerValue.result_apply m ρ c (i 0) (i 1)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq]
    obtain ⟨a0, a1, a2, a3, a4, a5⟩ := hagree c
    rw [a0, a1, a2, a3, a4, a5]
    funext i
    rw [eq_ix2 i]
    exact Cert.ReferenceIdeal.RefValue.result_apply _ _ _ _ _ _
      (Cert.PreRange.src_is_node _ _ _ _ _ _ (hpre c)) (i 0) (i 1)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
